-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S_ : Shape := ⟨0, ![]⟩

class Facts : Prop where
  bcast_S_S50000x1x512 : S_.BroadcastsInDim S50000x1x512 (![] : Fin 0 → Fin S50000x1x512.rank)
  reducesTo_S50000x1x512_S_d0_1_2 : S50000x1x512.ReducesTo [0, 1, 2] S_
  h_S_ : 0 < S_.numel
  bcast_S_S50000x3x512 : S_.BroadcastsInDim S50000x3x512 (![] : Fin 0 → Fin S50000x3x512.rank)
  reducesTo_S50000x3x512_S_d0_1_2 : S50000x3x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S512 .f32) (main_arg5 : FVec F S1536x512 .f32) (main_arg6 : FVec F S1536 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  main_v33

def fn {F : FTy → Type} [FloatOps F] (main_arg0 : FVec F S50000x1x512 .f32) (main_arg1 : FVec F S50000x3x512 .f32) (main_arg2 : FVec F S1024x512 .f32) (main_arg3 : FVec F S512x1024 .f32) (main_arg4 : FVec F S512 .f32) (main_arg5 : FVec F S1536x512 .f32) (main_arg6 : FVec F S1536 .f32) : IVec S_ 1 :=
  let main_v0 : FVec F S50000x1x512 .f32 := Host.absf main_arg0
  let main_cst : FVec F S_ .f32 := constant S_ .f32 0x7F800000#32
  let main_v1 : FVec F S50000x1x512 .f32 := broadcastInDim S50000x1x512 ![] bcast_S_S50000x1x512 main_cst
  let main_v2 : IVec S50000x1x512 1 := cmpf .olt main_v0 main_v1
  let main_c : IVec S_ 1 := constantI S_ 1 1#1
  let main_v3 : IVec S_ 1 := (fun x v => Host.reduce IntOp.andi x v reducesTo_S50000x1x512_S_d0_1_2 h_S_) main_v2 main_c
  let main_v4 : FVec F S50000x3x512 .f32 := Host.absf main_arg1
  let main_cst_0 : FVec F S_ .f32 := constant S_ .f32 0x7F800000#32
  let main_v5 : FVec F S50000x3x512 .f32 := broadcastInDim S50000x3x512 ![] bcast_S_S50000x3x512 main_cst_0
  let main_v6 : IVec S50000x3x512 1 := cmpf .olt main_v4 main_v5
  let main_c_1 : IVec S_ 1 := constantI S_ 1 1#1
  let main_v7 : IVec S_ 1 := (fun x v => Host.reduce IntOp.andi x v reducesTo_S50000x3x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S50000x512 : Shape := ⟨2, ![50000, 512]⟩
abbrev S50000x1536 : Shape := ⟨2, ![50000, 1536]⟩
abbrev S512x512 : Shape := ⟨2, ![512, 512]⟩
abbrev S512x1536 : Shape := ⟨2, ![512, 1536]⟩
abbrev S400x512 : Shape := ⟨2, ![400, 512]⟩
abbrev S400x1536 : Shape := ⟨2, ![400, 1536]⟩
abbrev S400x1024 : Shape := ⟨2, ![400, 1024]⟩
abbrev S1x512 : Shape := ⟨2, ![1, 512]⟩
abbrev S1x1536 : Shape := ⟨2, ![1, 1536]⟩

abbrev nBuf : Space → Nat
  | .hbm => 22
  | .vmem => 14
  | .smem => 0
  | _ => 0

abbrev bufTy : (tb : Table) → Fin (tcTables nBuf tb) → BufTy
  | .hbm, ⟨0, _⟩ => ⟨S50000x1x512, .f32⟩
  | .hbm, ⟨1, _⟩ => ⟨S50000x3x512, .f32⟩
  | .hbm, ⟨2, _⟩ => ⟨S1024x512, .f32⟩
  | .hbm, ⟨3, _⟩ => ⟨S512x1024, .f32⟩
  | .hbm, ⟨4, _⟩ => ⟨S512, .f32⟩
  | .hbm, ⟨5, _⟩ => ⟨S1536x512, .f32⟩
  | .hbm, ⟨6, _⟩ => ⟨S1536, .f32⟩
  | .hbm, ⟨7, _⟩ => ⟨S50000x512, .f32⟩
  | .hbm, ⟨8, _⟩ => ⟨S50000x1536, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x1536, .f32⟩
  | .hbm, ⟨17, _⟩ => ⟨S512x1536, .bf16⟩
  | .hbm, ⟨18, _⟩ => ⟨S50000x512, .f32⟩
  | .hbm, ⟨19, _⟩ => ⟨S50000x1536, .f32⟩
  | .hbm, ⟨20, _⟩ => ⟨S50000x1x512, .f32⟩
  | .hbm, ⟨21, _⟩ => ⟨S50000x3x512, .f32⟩
  | .local _ .vmem, ⟨0, _⟩ => ⟨S400x512, .f32⟩
  | .local _ .vmem, ⟨1, _⟩ => ⟨S400x512, .f32⟩
  | .local _ .vmem, ⟨2, _⟩ => ⟨S400x1536, .f32⟩
  | .local _ .vmem, ⟨3, _⟩ => ⟨S400x1536, .f32⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1536, .bf16⟩
  | .local _ .vmem, ⟨8, _⟩ => ⟨S512, .f32⟩
  | .local _ .vmem, ⟨9, _⟩ => ⟨S1536, .f32⟩
  | .local _ .vmem, ⟨10, _⟩ => ⟨S400x512, .f32⟩
  | .local _ .vmem, ⟨11, _⟩ => ⟨S400x512, .f32⟩
  | .local _ .vmem, ⟨12, _⟩ => ⟨S400x1536, .f32⟩
  | .local _ .vmem, ⟨13, _⟩ => ⟨S400x1536, .f32⟩
  | _, _ => ⟨S50000x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S50000x1x512_S50000x512 : S50000x1x512.ShapeCasts S50000x512
  shapeCasts_S50000x3x512_S50000x1536 : S50000x3x512.ShapeCasts S50000x1536
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  transposes_S1536x512_S512x1536_1_0 : S1536x512.Transposes [1, 0] S512x1536
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x1536_S400x1536_0_0 : ∀ a, (![0, 0] : Fin 2 → Nat) a + S400x1536.size a ≤ S400x1536.size a
  h_S400x1536 : 0 < S400x1536.numel
  shapeCasts_S400x1536_S400x1536 : S400x1536.ShapeCasts S400x1536
  slices_S400x1536_o0_0_S400x512 : S400x1536.Slices ![0, 0] S400x512
  slices_S400x1536_o0_512_S400x512 : S400x1536.Slices ![0, 512] S400x512
  slices_S400x1536_o0_1024_S400x512 : S400x1536.Slices ![0, 1024] S400x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S400x1024_o0_0_S400x512 : S400x1024.Slices ![0, 0] S400x512
  slices_S400x1024_o0_512_S400x512 : S400x1024.Slices ![0, 512] S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S400x512 : S1x512.Broadcasts S400x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1536_S1536_0 : ∀ a, (![0] : Fin 1 → Nat) a + S1536.size a ≤ S1536.size a
  h_S1536 : 0 < S1536.numel
  shapeCasts_S1536_S1x1536 : S1536.ShapeCasts S1x1536
  broadcasts_S1x1536_S400x1536 : S1x1536.Broadcasts S400x1536
  inb_S400x1536_S400x512_0_0 : ∀ a, (![0, 0] : Fin 2 → Nat) a + S400x512.size a ≤ S400x1536.size a
  inb_S400x1536_S400x512_0_512 : ∀ a, (![0, 512] : Fin 2 → Nat) a + S400x512.size a ≤ S400x1536.size a
  inb_S400x1536_S400x512_0_1024 : ∀ a, (![0, 1024] : Fin 2 → Nat) a + S400x512.size a ≤ S400x1536.size a
  shapeCasts_S50000x512_S50000x1x512 : S50000x512.ShapeCasts S50000x1x512
  shapeCasts_S50000x1536_S50000x3x512 : S50000x1536.ShapeCasts S50000x3x512
  dot_S400x512_S512x1024_S400x1024_1_0_0_1_n_n_wf : DotDims.WF S400x512 S512x1024 S400x1024 [1] [0] [0] [1] [] []
  dot_S400x512_S512x512_S400x512_1_0_0_1_n_n_wf : DotDims.WF S400x512 S512x512 S400x512 [1] [0] [0] [1] [] []
  dot_S400x512_S512x1536_S400x1536_1_0_0_1_n_n_wf : DotDims.WF S400x512 S512x1536 S400x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S50000x512.size a
  hwx0_0 : ∀ i : grid0.Coords, EltTy.bits .f32 = 32 ∨ (Rect.block (s := S50000x512) S400x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1536.size a ≤ S50000x1536.size a
  hwx0_1 : ∀ i : grid0.Coords, EltTy.bits .f32 = 32 ∨ (Rect.block (s := S50000x1536) S400x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1536.size a ≤ S1536.size a
  hwx0_7 : ∀ i : grid0.Coords, EltTy.bits .f32 = 32 ∨ (Rect.block (s := S1536) S1536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x512.size a ≤ S50000x512.size a
  hwx0_8 : ∀ i : grid0.Coords, EltTy.bits .f32 = 32 ∨ (Rect.block (s := S50000x512) S400x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x1536.size a ≤ S50000x1536.size a
  hwx0_9 : ∀ i : grid0.Coords, EltTy.bits .f32 = 32 ∨ (Rect.block (s := S50000x1536) S400x1536.size (cc0_transform_9 i) (hinb0_9 i)).WholeWords (EltTy.packing .f32)

variable [Facts₀]

def dot_S400x512_S512x1024_S400x1024_1_0_0_1_n_n : DotDims S400x512 S512x1024 S400x1024 where
  lhsContracting := [1]
  rhsContracting := [0]
  lhsNonContracting := [0]
  rhsNonContracting := [1]
  lhsBatch := []
  rhsBatch := []
  wf := dot_S400x512_S512x1024_S400x1024_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x1536_S400x1536_1_0_0_1_n_n : DotDims S400x512 S512x1536 S400x1536 where
  lhsContracting := [1]
  rhsContracting := [0]
  lhsNonContracting := [0]
  rhsNonContracting := [1]
  lhsBatch := []
  rhsBatch := []
  wf := dot_S400x512_S512x1536_S400x1536_1_0_0_1_n_n_wf

abbrev win0_0 : Pipeline.Window sig grid0 :=
  Pipeline.Window.ofSpec (Memref.whole main_v0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S400x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S400x1536.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S50000x3x1024 : Shape := ⟨3, ![50000, 3, 1024]⟩
abbrev S_ : Shape := ⟨0, ![]⟩
abbrev S50000x512 : Shape := ⟨2, ![50000, 512]⟩
abbrev S50000x1x1024 : Shape := ⟨3, ![50000, 1, 1024]⟩
abbrev S1x1x512 : Shape := ⟨3, ![1, 1, 512]⟩
abbrev S50000x1x1536 : Shape := ⟨3, ![50000, 1, 1536]⟩
abbrev S1x1x1536 : Shape := ⟨3, ![1, 1, 1536]⟩

abbrev nBuf : Space → Nat
  | .hbm => 49
  | .vmem => 0
  | .smem => 0
  | _ => 0

abbrev bufTy : (tb : Table) → Fin (tcTables nBuf tb) → BufTy
  | .hbm, ⟨0, _⟩ => ⟨S50000x1x512, .f32⟩
  | .hbm, ⟨1, _⟩ => ⟨S50000x3x512, .f32⟩
  | .hbm, ⟨2, _⟩ => ⟨S1024x512, .f32⟩
  | .hbm, ⟨3, _⟩ => ⟨S512x1024, .f32⟩
  | .hbm, ⟨4, _⟩ => ⟨S512, .f32⟩
  | .hbm, ⟨5, _⟩ => ⟨S1536x512, .f32⟩
  | .hbm, ⟨6, _⟩ => ⟨S1536, .f32⟩
  | .hbm, ⟨7, _⟩ => ⟨S50000x3x1024, .f32⟩
  | .hbm, ⟨8, _⟩ => ⟨S50000x3x512, .f32⟩
  | .hbm, ⟨9, _⟩ => ⟨S50000x3x512, .f32⟩
  | .hbm, ⟨10, _⟩ => ⟨S50000x3x512, .f32⟩
  | .hbm, ⟨11, _⟩ => ⟨S_, .f32⟩
  | .hbm, ⟨12, _⟩ => ⟨S50000x512, .f32⟩
  | .hbm, ⟨13, _⟩ => ⟨S50000x1x512, .f32⟩
  | .hbm, ⟨14, _⟩ => ⟨S_, .f32⟩
  | .hbm, ⟨15, _⟩ => ⟨S50000x1x512, .f32⟩
  | .hbm, ⟨16, _⟩ => ⟨S50000x1x512, .f32⟩
  | .hbm, ⟨17, _⟩ => ⟨S50000x1x512, .f32⟩
  | .hbm, ⟨18, _⟩ => ⟨S50000x1x1024, .f32⟩
  | .hbm, ⟨19, _⟩ => ⟨S50000x1x512, .f32⟩
  | .hbm, ⟨20, _⟩ => ⟨S1x1x512, .f32⟩
  | .hbm, ⟨21, _⟩ => ⟨S50000x1x512, .f32⟩
  | .hbm, ⟨22, _⟩ => ⟨S50000x1x512, .f32⟩
  | .hbm, ⟨23, _⟩ => ⟨S50000x1x512, .f32⟩
  | .hbm, ⟨24, _⟩ => ⟨S50000x1x512, .f32⟩
  | .hbm, ⟨25, _⟩ => ⟨S_, .f32⟩
  | .hbm, ⟨26, _⟩ => ⟨S50000x1x512, .f32⟩
  | .hbm, ⟨27, _⟩ => ⟨S50000x1x512, .f32⟩
  | .hbm, ⟨28, _⟩ => ⟨S_, .f32⟩
  | .hbm, ⟨29, _⟩ => ⟨S50000x1x512, .f32⟩
  | .hbm, ⟨30, _⟩ => ⟨S50000x1x512, .f32⟩
  | .hbm, ⟨31, _⟩ => ⟨S50000x1x512, .f32⟩
  | .hbm, ⟨32, _⟩ => ⟨S50000x1x1536, .f32⟩
  | .hbm, ⟨33, _⟩ => ⟨S1x1x1536, .f32⟩
  | .hbm, ⟨34, _⟩ => ⟨S50000x1x1536, .f32⟩
  | .hbm, ⟨35, _⟩ => ⟨S50000x1x1536, .f32⟩
  | .hbm, ⟨36, _⟩ => ⟨S50000x1x512, .f32⟩
  | .hbm, ⟨37, _⟩ => ⟨S50000x1x512, .f32⟩
  | .hbm, ⟨38, _⟩ => ⟨S50000x3x512, .f32⟩
  | .hbm, ⟨39, _⟩ => ⟨S50000x3x512, .f32⟩
  | .hbm, ⟨40, _⟩ => ⟨S50000x1x512, .f32⟩
  | .hbm, ⟨41, _⟩ => ⟨S50000x3x512, .f32⟩
  | .hbm, ⟨42, _⟩ => ⟨S_, .f32⟩
  | .hbm, ⟨43, _⟩ => ⟨S50000x512, .f32⟩
  | .hbm, ⟨44, _⟩ => ⟨S50000x1x512, .f32⟩
  | .hbm, ⟨45, _⟩ => ⟨S50000x1x512, .f32⟩
  | .hbm, ⟨46, _⟩ => ⟨S50000x1x512, .f32⟩
  | .hbm, ⟨47, _⟩ => ⟨S50000x1x512, .f32⟩
  | .hbm, ⟨48, _⟩ => ⟨S50000x3x512, .f32⟩
  | _, _ => ⟨S50000x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  slices_S50000x3x1024_S50000x3x512_0_0_0 : S50000x3x1024.Slices ![0, 0, 0] S50000x3x512
  slices_S50000x3x1024_S50000x3x512_0_0_512 : S50000x3x1024.Slices ![0, 0, 512] S50000x3x512
  reducesTo_S50000x3x512_S50000x512_d1 : S50000x3x512.ReducesTo [1] S50000x512
  h_S_ : 0 < S_.numel
  bcast_S50000x512_S50000x1x512_0_2 : S50000x512.BroadcastsInDim S50000x1x512 (![0, 2] : Fin 2 → Fin S50000x1x512.rank)
  bcast_S_S50000x1x512 : S_.BroadcastsInDim S50000x1x512 (![] : Fin 0 → Fin S50000x1x512.rank)
  concatenates_S50000x1x512_S50000x1x512_S50000x1x1024_d2 : Shape.Concatenates [S50000x1x512, S50000x1x512] S50000x1x1024 2
  bcast_S512_S1x1x512_2 : S512.BroadcastsInDim S1x1x512 (![2] : Fin 1 → Fin S1x1x512.rank)
  bcast_S1x1x512_S50000x1x512_0_1_2 : S1x1x512.BroadcastsInDim S50000x1x512 (![0, 1, 2] : Fin 3 → Fin S50000x1x512.rank)
  bcast_S1536_S1x1x1536_2 : S1536.BroadcastsInDim S1x1x1536 (![2] : Fin 1 → Fin S1x1x1536.rank)
  bcast_S1x1x1536_S50000x1x1536_0_1_2 : S1x1x1536.BroadcastsInDim S50000x1x1536 (![0, 1, 2] : Fin 3 → Fin S50000x1x1536.rank)
  slices_S50000x1x1536_S50000x1x512_0_0_0 : S50000x1x1536.Slices ![0, 0, 0] S50000x1x512
  slices_S50000x1x1536_S50000x1x512_0_0_512 : S50000x1x1536.Slices ![0, 0, 512] S50000x1x512
  bcast_S50000x1x512_S50000x3x512_0_1_2 : S50000x1x512.BroadcastsInDim S50000x3x512 (![0, 1, 2] : Fin 3 → Fin S50000x3x512.rank)
  slices_S50000x1x1536_S50000x1x512_0_0_1024 : S50000x1x1536.Slices ![0, 0, 1024] S50000x1x512
  dot_S50000x3x512_S1024x512_S50000x3x1024_2_1_01_0_n_n_wf : DotDims.WF S50000x3x512 S1024x512 S50000x3x1024 [2] [1] [0, 1] [0] [] []
  dot_S50000x1x1024_S512x1024_S50000x1x512_2_1_01_0_n_n_wf : DotDims.WF S50000x1x1024 S512x1024 S50000x1x512 [2] [1] [0, 1] [0] [] []
  dot_S50000x1x512_S1536x512_S50000x1x1536_2_1_01_0_n_n_wf : DotDims.WF S50000x1x512 S1536x512 S50000x1x1536 [2] [1] [0, 1] [0] [] []

variable [Facts₀]

def dot_S50000x3x512_S1024x512_S50000x3x1024_2_1_01_0_n_n : DotDims S50000x3x512 S1024x512 S50000x3x1024 where
  lhsContracting := [2]
  rhsContracting := [1]
  lhsNonContracting := [0, 1]
  rhsNonContracting := [0]
  lhsBatch := []
  rhsBatch := []
  wf := dot_S50000x3x512_S1024x512_S50000x3x1024_2_1_01_0_n_n_wf
def dot_S50000x1x1024_S512x1024_S50000x1x512_2_1_01_0_n_n : DotDims S50000x1x1024 S512x1024 S50000x1x512 where
  lhsContracting := [2]
  rhsContracting := [1]
  lhsNonContracting := [0, 1]
  rhsNonContracting := [0]
  lhsBatch := []
  rhsBatch := []
  wf := dot_S50000x1x1024_S512x1024_S50000x1x512_2_1_01_0_n_n_wf
def dot_S50000x1x512_S1536x512_S50000x1x1536_2_1_01_0_n_n : DotDims S50000x1x512 S1536x512 S50000x1x1536 where
  lhsContracting := [2]
  rhsContracting := [1]
  lhsNonContracting := [0, 1]
  rhsNonContracting := [0]
  lhsBatch := []
  rhsBatch := []
  wf := dot_S50000x1x512_S1536x512_S50000x1x1536_2_1_01_0_n_n_wf

class Facts : Prop extends Facts₀ where

variable [Facts]
-- ==== Proof.Row.lean ====
/-
  The mathematics of one row of the mixing layer, free of any tiling or layout.

  One row holds a scalar channel vector `q ∈ ℝ̄^512` and three Cartesian channel vectors `μ_d ∈ ℝ̄^512` (d = 0, 1, 2).
  With the weights `Wm ∈ ℝ̄^{1024×512}`, `W1 = [W1a | W1b] ∈ ℝ̄^{512×(512+512)}`, `W2 ∈ ℝ̄^{1536×512}` and the biases
  `b1`, `b2` the layer computes, over the extended reals,

    mix d g   = Σ_f μ_d f · Wm g f                       (g < 1024: the first 512 columns are V, the last 512 are W)
    vnorm j   = √(V_0 j² + V_1 j² + V_2 j² + ε)
    hpre g    = Σ_f q f · W1a g f + Σ_f vnorm f · W1b g f + b1 g
    hact g    = hpre g · σ(hpre g)                        (σ the logistic function)
    xo k      = Σ_g hact g · W2 k g + b2 k                (k < 1536: three thirds of 512)
    q'  j     = q j + xo j + xo (1024 + j) · (V_0 j·W_0 j + V_1 j·W_1 j + V_2 j·W_2 j)
    μ'_d j    = μ_d j + xo (512 + j) · W_d j

  Both programs compute exactly these two functions of a row; they differ only in how the rows and the weight
  matrices are laid out, and in the order in which the three-term sums and the 1024-term contraction are grouped.
-/
import Idealize.ShloMosaic.PureOps.Ideal

noncomputable section

open scoped BigOperators

namespace Cert.MixRow

open Idealize.ShloMosaic

/-- Column `j` of the first half of a 1024-wide row. -/
def lo (j : Fin 512) : Fin 1024 := ⟨j.val, by omega⟩
/-- Column `j` of the second half of a 1024-wide row. -/
def hi (j : Fin 512) : Fin 1024 := ⟨512 + j.val, by omega⟩
/-- Column `j` of the first third of a 1536-wide row. -/
def th0 (j : Fin 512) : Fin 1536 := ⟨j.val, by omega⟩
/-- Column `j` of the second third of a 1536-wide row. -/
def th1 (j : Fin 512) : Fin 1536 := ⟨512 + j.val, by omega⟩
/-- Column `j` of the last third of a 1536-wide row. -/
def th2 (j : Fin 512) : Fin 1536 := ⟨1024 + j.val, by omega⟩

/-- The additive constant under the square root, as the f32 word both programs carry. -/
def eps : EReal := Ideal.ofBits .f32 0x322BCC77#32

section Row

variable (qr : Fin 512 → EReal) (mur : Fin 3 → Fin 512 → EReal) (Wm : Fin 1024 → Fin 512 → EReal)
  (W1a W1b : Fin 512 → Fin 512 → EReal) (b1 : Fin 512 → EReal) (W2 : Fin 1536 → Fin 512 → EReal) (b2 : Fin 1536 → EReal)

/-- Channel mixing of Cartesian component `d`: output channel `g` of `μ_d · Wmᵀ`. -/
def mix (d : Fin 3) (g : Fin 1024) : EReal := ∑ f : Fin 512, mur d f * Wm g f

/-- The norm over the Cartesian axis of the first 512 mixed channels, stabilised by `eps`. -/
def vnorm (j : Fin 512) : EReal :=
  Ideal.sqrt (mix mur Wm 0 (lo j) * mix mur Wm 0 (lo j) + mix mur Wm 1 (lo j) * mix mur Wm 1 (lo j)
    + mix mur Wm 2 (lo j) * mix mur Wm 2 (lo j) + eps)

/-- The hidden layer before its activation: the context `[q | vnorm]` against `W1`, the contraction split at 512. -/
def hpre (g : Fin 512) : EReal :=
  ∑ f : Fin 512, qr f * W1a g f + ∑ f : Fin 512, vnorm mur Wm f * W1b g f + b1 g

/-- The hidden layer: `x · σ(x)`. -/
def hact (g : Fin 512) : EReal :=
  hpre qr mur Wm W1a W1b b1 g * Ideal.logistic (hpre qr mur Wm W1a W1b b1 g)

/-- The output layer, 1536 wide. -/
def xo (k : Fin 1536) : EReal := ∑ g : Fin 512, hact qr mur Wm W1a W1b b1 g * W2 k g + b2 k

/-- The inner product over the Cartesian axis of the two halves of the mixed channels. -/
def dotvw (j : Fin 512) : EReal :=
  mix mur Wm 0 (lo j) * mix mur Wm 0 (hi j) + mix mur Wm 1 (lo j) * mix mur Wm 1 (hi j)
    + mix mur Wm 2 (lo j) * mix mur Wm 2 (hi j)

/-- The updated scalar channels of the row. -/
def qNew (j : Fin 512) : EReal :=
  qr j + xo qr mur Wm W1a W1b b1 W2 b2 (th0 j) + xo qr mur Wm W1a W1b b1 W2 b2 (th2 j) * dotvw mur Wm j

/-- The updated Cartesian channels of the row. -/
def muNew (d : Fin 3) (j : Fin 512) : EReal :=
  mur d j + xo qr mur Wm W1a W1b b1 W2 b2 (th1 j) * mix mur Wm d (hi j)

end Row

end Cert.MixRow

end
-- ==== Proof.Spec.lean ====
/-
  The two results as functions of the seven argument arrays, element by element.

  Row `n` of the scalar channels is `q[n, 0, ·]`, its Cartesian channels are `μ[n, d, ·]`; the weights are read as they
  are stored (`Wm[g, f]`, `W1[g, k]` with the contraction index `k` split at 512, `W2[k, g]`). Entry `[n, 0, j]` of the
  first result is `qNew` of row `n` at channel `j`, entry `[n, d, j]` of the second is `muNew` of row `n` at `(d, j)`.
-/
import proofs.«107358_j34394098106847_1_alg».proof.Proof.Row
import Idealize.ShloMosaic.Lib.ValueIdx

noncomputable section

namespace Cert.MixSpec

open Idealize.ShloMosaic Idealize.ShloMosaic.ValueIdx Cert.MixRow

abbrev Sq : Shape := ⟨3, ![50000, 1, 512]⟩
abbrev Smu : Shape := ⟨3, ![50000, 3, 512]⟩
abbrev SWm : Shape := ⟨2, ![1024, 512]⟩
abbrev SW1 : Shape := ⟨2, ![512, 1024]⟩
abbrev Sb1 : Shape := ⟨1, ![512]⟩
abbrev SW2 : Shape := ⟨2, ![1536, 512]⟩
abbrev Sb2 : Shape := ⟨1, ![1536]⟩

section Arrays

variable (q : Sq.Idx → EReal) (mu : Smu.Idx → EReal) (Wm : SWm.Idx → EReal) (W1 : SW1.Idx → EReal)
  (b1 : Sb1.Idx → EReal) (W2 : SW2.Idx → EReal) (b2 : Sb2.Idx → EReal)

/-- Row `n` of the scalar channels. -/
def qRow (n : Fin 50000) : Fin 512 → EReal := fun f => q (ix3 n (0 : Fin 1) f)
/-- Row `n` of the Cartesian channels. -/
def muRow (n : Fin 50000) : Fin 3 → Fin 512 → EReal := fun d f => mu (ix3 n d f)
/-- The mixing weight, output channel first. -/
def wmMat : Fin 1024 → Fin 512 → EReal := fun g f => Wm (ix2 g f)
/-- The half of the first layer's weight that meets the scalar channels. -/
def w1aMat : Fin 512 → Fin 512 → EReal := fun g f => W1 (ix2 g (lo f))
/-- The half of the first layer's weight that meets the norms. -/
def w1bMat : Fin 512 → Fin 512 → EReal := fun g f => W1 (ix2 g (hi f))
/-- The first layer's bias. -/
def b1Vec : Fin 512 → EReal := fun g => b1 (ix1 g)
/-- The second layer's weight, output channel first. -/
def w2Mat : Fin 1536 → Fin 512 → EReal := fun k g => W2 (ix2 k g)
/-- The second layer's bias. -/
def b2Vec : Fin 1536 → EReal := fun k => b2 (ix1 k)

/-- The updated scalar channels, as an array `[50000, 1, 512]`. -/
def qOut : Sq.Idx → EReal := fun i =>
  qNew (qRow q (i 0)) (muRow mu (i 0)) (wmMat Wm) (w1aMat W1) (w1bMat W1) (b1Vec b1) (w2Mat W2) (b2Vec b2) (i 2)

/-- The updated Cartesian channels, as an array `[50000, 3, 512]`. -/
def muOut : Smu.Idx → EReal := fun i =>
  muNew (qRow q (i 0)) (muRow mu (i 0)) (wmMat Wm) (w1aMat W1) (w1bMat W1) (b1Vec b1) (w2Mat W2) (b2Vec b2) (i 1) (i 2)

end Arrays

end Cert.MixSpec

end
-- ==== Proof.BlockValue.lean ====
/-
  What the kernel body leaves in its two output blocks, read at an index, are the row functions of the input blocks.
-/
import proofs.«107358_j34394098106847_1_alg».proof.Proof.Gen.KernelIdeal.Frame
import proofs.«107358_j34394098106847_1_alg».proof.Proof.Spec
import Idealize.ShloMosaic.Lib.Pipeline.Value
import Idealize.ShloMosaic.Lib.ValueLayout
import Idealize.ShloMosaic.PureOps.Ideal.Laws

noncomputable section

open scoped BigOperators

namespace Cert.MixBlock

open Idealize.ShloMosaic Idealize.ShloMosaic.ValueIdx Cert.MixRow
open Cert.KernelIdeal Cert.KernelIdeal.Gen

/-- Column `j` of Cartesian component `d` in a row of 1536 = 3 · 512 columns. -/
def col3 (d : Fin 3) (j : Fin 512) : Fin 1536 := ⟨512 * d.val + j.val, by omega⟩

variable (x0 : Vec Ideal S400x512 .f32) (x1 : Vec Ideal S400x1536 .f32) (x2 : Vec Ideal S512x1024 .bf16)
  (x3 : Vec Ideal S512x512 .bf16) (x4 : Vec Ideal S512x512 .bf16) (x5 : Vec Ideal S512x1536 .bf16)
  (x6 : Vec Ideal S512 .f32) (x7 : Vec Ideal S1536 .f32)

/-- Row `p` of the scalar block. -/
def qBlkRow (p : Fin 400) : Fin 512 → EReal := fun f => x0 (ix2 p f)
/-- Row `p` of the Cartesian block: component `d` sits in columns `512 d … 512 d + 511`. -/
def muBlkRow (p : Fin 400) : Fin 3 → Fin 512 → EReal := fun d f => x1 (ix2 p (col3 d f))
/-- The staged weights are transposed: entry `(g, f)` of a weight is entry `[f, g]` of its block. -/
def wT {a b : Nat} (x : (⟨2, ![a, b]⟩ : Shape).Idx → EReal) : Fin b → Fin a → EReal := fun g f => x (ix2 f g)

/-! ## Layout payloads: identity casts and the three column thirds of the Cartesian block -/

/-- The scalar block cast to its own shape is itself. -/
theorem pay7_eq (v0 : Vec Ideal S400x512 .f32) : k0_pay7 (F := Ideal) v0 = v0 :=
  shapeCast_self v0 _

/-- The Cartesian block cast to its own shape is itself. -/
theorem pay8_eq (v2 : Vec Ideal S400x1536 .f32) : k0_pay8 (F := Ideal) v2 = v2 :=
  shapeCast_self v2 _

/-- The mixing weight cast to its own shape is itself. -/
theorem pay12_eq (v7 : Vec Ideal S512x1024 .bf16) : k0_pay12 (F := Ideal) v7 = v7 :=
  shapeCast_self v7 _

/-- The first column third of the Cartesian block is component 0. -/
theorem pay9_apply (v2 : Vec Ideal S400x1536 .f32) (p : Fin 400) (f : Fin 512) :
    k0_pay9 (F := Ideal) v2 (ix2 p f) = v2 (ix2 p (col3 0 f)) := by
  unfold k0_pay9
  rw [pay8_eq]
  exact slice2_axis1_apply 0 v2 _ p f (col3 0 f) (by show 512 * 0 + f.val = 0 + f.val; omega)

/-- The second column third of the Cartesian block is component 1. -/
theorem pay10_apply (v2 : Vec Ideal S400x1536 .f32) (p : Fin 400) (f : Fin 512) :
    k0_pay10 (F := Ideal) v2 (ix2 p f) = v2 (ix2 p (col3 1 f)) := by
  unfold k0_pay10
  rw [pay8_eq]
  exact slice2_axis1_apply 512 v2 _ p f (col3 1 f) (by show 512 * 1 + f.val = 512 + f.val; omega)

/-- The last column third of the Cartesian block is component 2. -/
theorem pay11_apply (v2 : Vec Ideal S400x1536 .f32) (p : Fin 400) (f : Fin 512) :
    k0_pay11 (F := Ideal) v2 (ix2 p f) = v2 (ix2 p (col3 2 f)) := by
  unfold k0_pay11
  rw [pay8_eq]
  exact slice2_axis1_apply 1024 v2 _ p f (col3 2 f) (by show 512 * 2 + f.val = 1024 + f.val; omega)

/-! ## The three matrix products at an index -/

theorem lhsM_0 (i : S400x1024.Idx) (q : dot_S400x512_S512x1024_S400x1024_1_0_0_1_n_n.contr.Idx) :
    (dot_S400x512_S512x1024_S400x1024_1_0_0_1_n_n.lhsIdx i q 0).val = (i 0).val := by
  unfold DotDims.lhsIdx
  rw [dif_neg (show ¬(0 : Fin S400x512.rank) ∈ dot_S400x512_S512x1024_S400x1024_1_0_0_1_n_n.lhsBatch by decide), dif_pos (show (0 : Fin S400x512.rank) ∈ dot_S400x512_S512x1024_S400x1024_1_0_0_1_n_n.lhsNonContracting by decide)]
  rfl
theorem lhsM_1 (i : S400x1024.Idx) (q : dot_S400x512_S512x1024_S400x1024_1_0_0_1_n_n.contr.Idx) :
    (dot_S400x512_S512x1024_S400x1024_1_0_0_1_n_n.lhsIdx i q 1).val = (q ⟨0, by decide⟩).val :=
  dot_S400x512_S512x1024_S400x1024_1_0_0_1_n_n.lhsIdx_val_of_single rfl i q
theorem rhsM_0 (i : S400x1024.Idx) (q : dot_S400x512_S512x1024_S400x1024_1_0_0_1_n_n.contr.Idx) :
    (dot_S400x512_S512x1024_S400x1024_1_0_0_1_n_n.rhsIdx i q 0).val = (q ⟨0, by decide⟩).val :=
  dot_S400x512_S512x1024_S400x1024_1_0_0_1_n_n.rhsIdx_val_of_single rfl i q
theorem rhsM_1 (i : S400x1024.Idx) (q : dot_S400x512_S512x1024_S400x1024_1_0_0_1_n_n.contr.Idx) :
    (dot_S400x512_S512x1024_S400x1024_1_0_0_1_n_n.rhsIdx i q 1).val = (i 1).val := by
  unfold DotDims.rhsIdx
  rw [dif_neg (show ¬(1 : Fin S512x1024.rank) ∈ dot_S400x512_S512x1024_S400x1024_1_0_0_1_n_n.rhsBatch by decide), dif_pos (show (1 : Fin S512x1024.rank) ∈ dot_S400x512_S512x1024_S400x1024_1_0_0_1_n_n.rhsNonContracting by decide)]
  rfl

/-- A `[400, 512] × [512, 1024]` product into the zero accumulator, at `[p, g]`: the sum over the 512 contracted channels. -/
theorem matmulM_apply (a : FVec Ideal S400x512 .bf16) (b : FVec Ideal S512x1024 .bf16) (p : Fin 400) (g : Fin 1024) :
    matmul dot_S400x512_S512x1024_S400x1024_1_0_0_1_n_n none a b (constant (F := Ideal) S400x1024 .f32 0x00000000#32) (ix2 p g)
      = ∑ f : Fin 512, a (ix2 p f) * b (ix2 f g) := by
  simp only [matmul]
  rw [Ideal.matmul_constant_zero_apply, ← Equiv.sum_comp (contrEquiv1 dot_S400x512_S512x1024_S400x1024_1_0_0_1_n_n 512 rfl rfl).symm]
  refine Finset.sum_congr rfl fun k _ => ?_
  have hk := contrEquiv1_symm_val dot_S400x512_S512x1024_S400x1024_1_0_0_1_n_n 512 rfl rfl k
  have el : dot_S400x512_S512x1024_S400x1024_1_0_0_1_n_n.lhsIdx (ix2 p g) ((contrEquiv1 dot_S400x512_S512x1024_S400x1024_1_0_0_1_n_n 512 rfl rfl).symm k) = ix2 p k := funext fun c => Fin.ext (by
    match c with
    | ⟨0, _⟩ => exact lhsM_0 _ _
    | ⟨1, _⟩ => exact (lhsM_1 _ _).trans hk)
  have er : dot_S400x512_S512x1024_S400x1024_1_0_0_1_n_n.rhsIdx (ix2 p g) ((contrEquiv1 dot_S400x512_S512x1024_S400x1024_1_0_0_1_n_n 512 rfl rfl).symm k) = ix2 k g := funext fun c => Fin.ext (by
    match c with
    | ⟨0, _⟩ => exact (rhsM_0 _ _).trans hk
    | ⟨1, _⟩ => exact rhsM_1 _ _)
  rw [el, er]

theorem lhsH_0 (i : S400x512.Idx) (q : dot_S400x512_S512x512_S400x512_1_0_0_1_n_n.contr.Idx) :
    (dot_S400x512_S512x512_S400x512_1_0_0_1_n_n.lhsIdx i q 0).val = (i 0).val := by
  unfold DotDims.lhsIdx
  rw [dif_neg (show ¬(0 : Fin S400x512.rank) ∈ dot_S400x512_S512x512_S400x512_1_0_0_1_n_n.lhsBatch by decide), dif_pos (show (0 : Fin S400x512.rank) ∈ dot_S400x512_S512x512_S400x512_1_0_0_1_n_n.lhsNonContracting by decide)]
  rfl
theorem lhsH_1 (i : S400x512.Idx) (q : dot_S400x512_S512x512_S400x512_1_0_0_1_n_n.contr.Idx) :
    (dot_S400x512_S512x512_S400x512_1_0_0_1_n_n.lhsIdx i q 1).val = (q ⟨0, by decide⟩).val :=
  dot_S400x512_S512x512_S400x512_1_0_0_1_n_n.lhsIdx_val_of_single rfl i q
theorem rhsH_0 (i : S400x512.Idx) (q : dot_S400x512_S512x512_S400x512_1_0_0_1_n_n.contr.Idx) :
    (dot_S400x512_S512x512_S400x512_1_0_0_1_n_n.rhsIdx i q 0).val = (q ⟨0, by decide⟩).val :=
  dot_S400x512_S512x512_S400x512_1_0_0_1_n_n.rhsIdx_val_of_single rfl i q
theorem rhsH_1 (i : S400x512.Idx) (q : dot_S400x512_S512x512_S400x512_1_0_0_1_n_n.contr.Idx) :
    (dot_S400x512_S512x512_S400x512_1_0_0_1_n_n.rhsIdx i q 1).val = (i 1).val := by
  unfold DotDims.rhsIdx
  rw [dif_neg (show ¬(1 : Fin S512x512.rank) ∈ dot_S400x512_S512x512_S400x512_1_0_0_1_n_n.rhsBatch by decide), dif_pos (show (1 : Fin S512x512.rank) ∈ dot_S400x512_S512x512_S400x512_1_0_0_1_n_n.rhsNonContracting by decide)]
  rfl

/-- A `[400, 512] × [512, 512]` product into the zero accumulator, at `[p, g]`: the sum over the 512 contracted channels. -/
theorem matmulH_apply (a : FVec Ideal S400x512 .bf16) (b : FVec Ideal S512x512 .bf16) (p : Fin 400) (g : Fin 512) :
    matmul dot_S400x512_S512x512_S400x512_1_0_0_1_n_n none a b (constant (F := Ideal) S400x512 .f32 0x00000000#32) (ix2 p g)
      = ∑ f : Fin 512, a (ix2 p f) * b (ix2 f g) := by
  simp only [matmul]
  rw [Ideal.matmul_constant_zero_apply, ← Equiv.sum_comp (contrEquiv1 dot_S400x512_S512x512_S400x512_1_0_0_1_n_n 512 rfl rfl).symm]
  refine Finset.sum_congr rfl fun k _ => ?_
  have hk := contrEquiv1_symm_val dot_S400x512_S512x512_S400x512_1_0_0_1_n_n 512 rfl rfl k
  have el : dot_S400x512_S512x512_S400x512_1_0_0_1_n_n.lhsIdx (ix2 p g) ((contrEquiv1 dot_S400x512_S512x512_S400x512_1_0_0_1_n_n 512 rfl rfl).symm k) = ix2 p k := funext fun c => Fin.ext (by
    match c with
    | ⟨0, _⟩ => exact lhsH_0 _ _
    | ⟨1, _⟩ => exact (lhsH_1 _ _).trans hk)
  have er : dot_S400x512_S512x512_S400x512_1_0_0_1_n_n.rhsIdx (ix2 p g) ((contrEquiv1 dot_S400x512_S512x512_S400x512_1_0_0_1_n_n 512 rfl rfl).symm k) = ix2 k g := funext fun c => Fin.ext (by
    match c with
    | ⟨0, _⟩ => exact (rhsH_0 _ _).trans hk
    | ⟨1, _⟩ => exact rhsH_1 _ _)
  rw [el, er]

theorem lhsO_0 (i : S400x1536.Idx) (q : dot_S400x512_S512x1536_S400x1536_1_0_0_1_n_n.contr.Idx) :
    (dot_S400x512_S512x1536_S400x1536_1_0_0_1_n_n.lhsIdx i q 0).val = (i 0).val := by
  unfold DotDims.lhsIdx
  rw [dif_neg (show ¬(0 : Fin S400x512.rank) ∈ dot_S400x512_S512x1536_S400x1536_1_0_0_1_n_n.lhsBatch by decide), dif_pos (show (0 : Fin S400x512.rank) ∈ dot_S400x512_S512x1536_S400x1536_1_0_0_1_n_n.lhsNonContracting by decide)]
  rfl
theorem lhsO_1 (i : S400x1536.Idx) (q : dot_S400x512_S512x1536_S400x1536_1_0_0_1_n_n.contr.Idx) :
    (dot_S400x512_S512x1536_S400x1536_1_0_0_1_n_n.lhsIdx i q 1).val = (q ⟨0, by decide⟩).val :=
  dot_S400x512_S512x1536_S400x1536_1_0_0_1_n_n.lhsIdx_val_of_single rfl i q
theorem rhsO_0 (i : S400x1536.Idx) (q : dot_S400x512_S512x1536_S400x1536_1_0_0_1_n_n.contr.Idx) :
    (dot_S400x512_S512x1536_S400x1536_1_0_0_1_n_n.rhsIdx i q 0).val = (q ⟨0, by decide⟩).val :=
  dot_S400x512_S512x1536_S400x1536_1_0_0_1_n_n.rhsIdx_val_of_single rfl i q
theorem rhsO_1 (i : S400x1536.Idx) (q : dot_S400x512_S512x1536_S400x1536_1_0_0_1_n_n.contr.Idx) :
    (dot_S400x512_S512x1536_S400x1536_1_0_0_1_n_n.rhsIdx i q 1).val = (i 1).val := by
  unfold DotDims.rhsIdx
  rw [dif_neg (show ¬(1 : Fin S512x1536.rank) ∈ dot_S400x512_S512x1536_S400x1536_1_0_0_1_n_n.rhsBatch by decide), dif_pos (show (1 : Fin S512x1536.rank) ∈ dot_S400x512_S512x1536_S400x1536_1_0_0_1_n_n.rhsNonContracting by decide)]
  rfl

/-- A `[400, 512] × [512, 1536]` product into the zero accumulator, at `[p, g]`: the sum over the 512 contracted channels. -/
theorem matmulO_apply (a : FVec Ideal S400x512 .bf16) (b : FVec Ideal S512x1536 .bf16) (p : Fin 400) (g : Fin 1536) :
    matmul dot_S400x512_S512x1536_S400x1536_1_0_0_1_n_n none a b (constant (F := Ideal) S400x1536 .f32 0x00000000#32) (ix2 p g)
      = ∑ f : Fin 512, a (ix2 p f) * b (ix2 f g) := by
  simp only [matmul]
  rw [Ideal.matmul_constant_zero_apply, ← Equiv.sum_comp (contrEquiv1 dot_S400x512_S512x1536_S400x1536_1_0_0_1_n_n 512 rfl rfl).symm]
  refine Finset.sum_congr rfl fun k _ => ?_
  have hk := contrEquiv1_symm_val dot_S400x512_S512x1536_S400x1536_1_0_0_1_n_n 512 rfl rfl k
  have el : dot_S400x512_S512x1536_S400x1536_1_0_0_1_n_n.lhsIdx (ix2 p g) ((contrEquiv1 dot_S400x512_S512x1536_S400x1536_1_0_0_1_n_n 512 rfl rfl).symm k) = ix2 p k := funext fun c => Fin.ext (by
    match c with
    | ⟨0, _⟩ => exact lhsO_0 _ _
    | ⟨1, _⟩ => exact (lhsO_1 _ _).trans hk)
  have er : dot_S400x512_S512x1536_S400x1536_1_0_0_1_n_n.rhsIdx (ix2 p g) ((contrEquiv1 dot_S400x512_S512x1536_S400x1536_1_0_0_1_n_n 512 rfl rfl).symm k) = ix2 k g := funext fun c => Fin.ext (by
    match c with
    | ⟨0, _⟩ => exact (rhsO_0 _ _).trans hk
    | ⟨1, _⟩ => exact rhsO_1 _ _)
  rw [el, er]

/-! ## The mixed channels -/

/-- The mixed channels of component 0 at `[p, g]`. -/
theorem pay13_apply (v2 : Vec Ideal S400x1536 .f32) (v7 : Vec Ideal S512x1024 .bf16) (p : Fin 400) (g : Fin 1024) :
    k0_pay13 (F := Ideal) v2 v7 (ix2 p g) = mix (muBlkRow v2 p) (wT v7) 0 g := by
  unfold k0_pay13
  refine (matmulM_apply _ _ p g).trans ?_
  refine Finset.sum_congr rfl fun f _ => ?_
  rw [truncf_apply, pay9_apply, pay12_eq]
  rfl

/-- The mixed channels of component 1 at `[p, g]`. -/
theorem pay14_apply (v2 : Vec Ideal S400x1536 .f32) (v7 : Vec Ideal S512x1024 .bf16) (p : Fin 400) (g : Fin 1024) :
    k0_pay14 (F := Ideal) v2 v7 (ix2 p g) = mix (muBlkRow v2 p) (wT v7) 1 g := by
  unfold k0_pay14
  refine (matmulM_apply _ _ p g).trans ?_
  refine Finset.sum_congr rfl fun f _ => ?_
  rw [truncf_apply, pay10_apply, pay12_eq]
  rfl

/-- The mixed channels of component 2 at `[p, g]`. -/
theorem pay15_apply (v2 : Vec Ideal S400x1536 .f32) (v7 : Vec Ideal S512x1024 .bf16) (p : Fin 400) (g : Fin 1024) :
    k0_pay15 (F := Ideal) v2 v7 (ix2 p g) = mix (muBlkRow v2 p) (wT v7) 2 g := by
  unfold k0_pay15
  refine (matmulM_apply _ _ p g).trans ?_
  refine Finset.sum_congr rfl fun f _ => ?_
  rw [truncf_apply, pay11_apply, pay12_eq]
  rfl

/-- The first 512 mixed channels of component 0. -/
theorem pay16_apply (v2 : Vec Ideal S400x1536 .f32) (v7 : Vec Ideal S512x1024 .bf16) (p : Fin 400) (j : Fin 512) :
    k0_pay16 (F := Ideal) v2 v7 (ix2 p j) = mix (muBlkRow v2 p) (wT v7) 0 (lo j) := by
  unfold k0_pay16
  refine (slice2_axis1_apply 0 (k0_pay13 (F := Ideal) v2 v7) _ p j (lo j) (by show j.val = 0 + j.val; omega)).trans ?_
  exact pay13_apply v2 v7 p (lo j)

/-- The second 512 mixed channels of component 0. -/
theorem pay17_apply (v2 : Vec Ideal S400x1536 .f32) (v7 : Vec Ideal S512x1024 .bf16) (p : Fin 400) (j : Fin 512) :
    k0_pay17 (F := Ideal) v2 v7 (ix2 p j) = mix (muBlkRow v2 p) (wT v7) 0 (hi j) := by
  unfold k0_pay17
  refine (slice2_axis1_apply 512 (k0_pay13 (F := Ideal) v2 v7) _ p j (hi j) (by show 512 + j.val = 512 + j.val; omega)).trans ?_
  exact pay13_apply v2 v7 p (hi j)

/-- The first 512 mixed channels of component 1. -/
theorem pay18_apply (v2 : Vec Ideal S400x1536 .f32) (v7 : Vec Ideal S512x1024 .bf16) (p : Fin 400) (j : Fin 512) :
    k0_pay18 (F := Ideal) v2 v7 (ix2 p j) = mix (muBlkRow v2 p) (wT v7) 1 (lo j) := by
  unfold k0_pay18
  refine (slice2_axis1_apply 0 (k0_pay14 (F := Ideal) v2 v7) _ p j (lo j) (by show j.val = 0 + j.val; omega)).trans ?_
  exact pay14_apply v2 v7 p (lo j)

/-- The second 512 mixed channels of component 1. -/
theorem pay19_apply (v2 : Vec Ideal S400x1536 .f32) (v7 : Vec Ideal S512x1024 .bf16) (p : Fin 400) (j : Fin 512) :
    k0_pay19 (F := Ideal) v2 v7 (ix2 p j) = mix (muBlkRow v2 p) (wT v7) 1 (hi j) := by
  unfold k0_pay19
  refine (slice2_axis1_apply 512 (k0_pay14 (F := Ideal) v2 v7) _ p j (hi j) (by show 512 + j.val = 512 + j.val; omega)).trans ?_
  exact pay14_apply v2 v7 p (hi j)

/-- The first 512 mixed channels of component 2. -/
theorem pay20_apply (v2 : Vec Ideal S400x1536 .f32) (v7 : Vec Ideal S512x1024 .bf16) (p : Fin 400) (j : Fin 512) :
    k0_pay20 (F := Ideal) v2 v7 (ix2 p j) = mix (muBlkRow v2 p) (wT v7) 2 (lo j) := by
  unfold k0_pay20
  refine (slice2_axis1_apply 0 (k0_pay15 (F := Ideal) v2 v7) _ p j (lo j) (by show j.val = 0 + j.val; omega)).trans ?_
  exact pay15_apply v2 v7 p (lo j)

/-- The second 512 mixed channels of component 2. -/
theorem pay21_apply (v2 : Vec Ideal S400x1536 .f32) (v7 : Vec Ideal S512x1024 .bf16) (p : Fin 400) (j : Fin 512) :
    k0_pay21 (F := Ideal) v2 v7 (ix2 p j) = mix (muBlkRow v2 p) (wT v7) 2 (hi j) := by
  unfold k0_pay21
  refine (slice2_axis1_apply 512 (k0_pay15 (F := Ideal) v2 v7) _ p j (hi j) (by show 512 + j.val = 512 + j.val; omega)).trans ?_
  exact pay15_apply v2 v7 p (hi j)

/-! ## The hidden layer -/

/-- A square root at an index is the extended reals' square root of the element. -/
theorem sqrt_apply {s : Shape} {φ : FTy} (a : FVec Ideal s φ) (i : s.Idx) : sqrt a i = Ideal.sqrt (a i) := rfl
/-- A logistic function at an index is the extended reals' logistic function of the element. -/
theorem logistic_apply {s : Shape} {φ : FTy} (a : FVec Ideal s φ) (i : s.Idx) : logistic a i = Ideal.logistic (a i) := rfl

/-- The hidden layer before its activation at `[p, g]`. -/
theorem pay22_apply (v0 : Vec Ideal S400x512 .f32) (v2 : Vec Ideal S400x1536 .f32) (v7 : Vec Ideal S512x1024 .bf16)
    (v29 v31 : Vec Ideal S512x512 .bf16) (v38 : Vec Ideal S512 .f32) (p : Fin 400) (g : Fin 512) :
    k0_pay22 (F := Ideal) v0 v2 v7 v29 v31 v38 (ix2 p g)
      = hpre (qBlkRow v0 p) (muBlkRow v2 p) (wT v7) (wT v29) (wT v31) (fun g => v38 (ix1 g)) g := by
  unfold k0_pay22
  rw [addf_apply, addf_apply]
  unfold hpre
  refine congrArg₂ (· + ·) (congrArg₂ (· + ·) ?_ ?_) ?_
  · refine (matmulH_apply _ _ p g).trans (Finset.sum_congr rfl fun f _ => ?_)
    rw [truncf_apply, pay7_eq, shapeCast_self]
    rfl
  · refine (matmulH_apply _ _ p g).trans (Finset.sum_congr rfl fun f _ => ?_)
    rw [truncf_apply, shapeCast_self, sqrt_apply, addf_apply, addf_apply, addf_apply, mulf_apply, mulf_apply, mulf_apply,
      broadcast_apply, pay16_apply, pay18_apply, pay20_apply]
    rfl
  · exact (broadcastTo_1b_ab_apply _ _ p g).trans (shapeCast_a_1a_apply v38 _ 0 g)

/-! ## The output layer and the two updates -/

/-- The output layer at `[p, k]`, from a hidden block whose row `p` before the activation is `h`. -/
theorem pay1_apply (v41 : FVec Ideal S400x512 .f32) (v44 : Vec Ideal S512x1536 .bf16) (v48 : Vec Ideal S1536 .f32)
    (p : Fin 400) (h : Fin 512 → EReal) (hh : ∀ g, v41 (ix2 p g) = h g) (k : Fin 1536) :
    k0_pay1 (F := Ideal) v41 v44 v48 (ix2 p k)
      = ∑ g : Fin 512, (h g * Ideal.logistic (h g)) * wT v44 k g + v48 (ix1 k) := by
  unfold k0_pay1
  rw [addf_apply]
  refine congrArg₂ (· + ·) ?_ ?_
  · refine (matmulO_apply _ _ p k).trans (Finset.sum_congr rfl fun g _ => ?_)
    rw [truncf_apply, mulf_apply, logistic_apply, hh, shapeCast_self]
    rfl
  · exact (broadcastTo_1b_ab_apply _ _ p k).trans (shapeCast_a_1a_apply v48 _ 0 k)

/-- The output layer over the hidden layer of the blocks: `xo` of row `p`. -/
theorem xo_apply (v0 : Vec Ideal S400x512 .f32) (v2 : Vec Ideal S400x1536 .f32) (v7 : Vec Ideal S512x1024 .bf16)
    (v29 v31 : Vec Ideal S512x512 .bf16) (v38 : Vec Ideal S512 .f32) (v44 : Vec Ideal S512x1536 .bf16)
    (v48 : Vec Ideal S1536 .f32) (p : Fin 400) (k : Fin 1536) :
    k0_pay1 (F := Ideal) (k0_pay22 (F := Ideal) v0 v2 v7 v29 v31 v38) v44 v48 (ix2 p k)
      = xo (qBlkRow v0 p) (muBlkRow v2 p) (wT v7) (wT v29) (wT v31) (fun g => v38 (ix1 g)) (wT v44)
          (fun k => v48 (ix1 k)) k :=
  pay1_apply _ v44 v48 p _ (fun g => pay22_apply v0 v2 v7 v29 v31 v38 p g) k

/-- The middle third of the output layer. -/
theorem pay2_apply (v41 : FVec Ideal S400x512 .f32) (v44 : Vec Ideal S512x1536 .bf16) (v48 : Vec Ideal S1536 .f32)
    (p : Fin 400) (j : Fin 512) :
    k0_pay2 (F := Ideal) v41 v44 v48 (ix2 p j) = k0_pay1 (F := Ideal) v41 v44 v48 (ix2 p (th1 j)) := by
  unfold k0_pay2
  exact slice2_axis1_apply 512 (k0_pay1 (F := Ideal) v41 v44 v48) _ p j (th1 j) (by show 512 + j.val = 512 + j.val; rfl)

/-- The updated scalar channels, from the blocks the payload reads. -/
theorem pay3_apply (v1 v15 v16 v17 v18 v19 v20 v41 : FVec Ideal S400x512 .f32) (v44 : Vec Ideal S512x1536 .bf16)
    (v48 : Vec Ideal S1536 .f32) (p : Fin 400) (j : Fin 512) :
    k0_pay3 (F := Ideal) v1 v15 v16 v17 v18 v19 v20 v41 v44 v48 (ix2 p j)
      = v1 (ix2 p j) + k0_pay1 (F := Ideal) v41 v44 v48 (ix2 p (th0 j))
        + k0_pay1 (F := Ideal) v41 v44 v48 (ix2 p (th2 j))
          * (v15 (ix2 p j) * v16 (ix2 p j) + v17 (ix2 p j) * v18 (ix2 p j) + v19 (ix2 p j) * v20 (ix2 p j)) := by
  unfold k0_pay3
  rw [addf_apply, addf_apply, mulf_apply, addf_apply, addf_apply, mulf_apply, mulf_apply, mulf_apply]
  refine congrArg₂ (· + ·) (congrArg₂ (· + ·) rfl ?_) (congrArg₂ (· * ·) ?_ rfl)
  · exact slice2_axis1_apply 0 (k0_pay1 (F := Ideal) v41 v44 v48) _ p j (th0 j) (by show j.val = 0 + j.val; omega)
  · exact slice2_axis1_apply 1024 (k0_pay1 (F := Ideal) v41 v44 v48) _ p j (th2 j) (by show 1024 + j.val = 1024 + j.val; rfl)

/-- The updated Cartesian channels of component 0, from the blocks its payload reads. -/
theorem pay4_apply (v : FVec Ideal S400x512 .f32) (w : FVec Ideal S400x512 .f32) (v41 : FVec Ideal S400x512 .f32)
    (v44 : Vec Ideal S512x1536 .bf16) (v48 : Vec Ideal S1536 .f32) (p : Fin 400) (j : Fin 512) :
    k0_pay4 (F := Ideal) v w v41 v44 v48 (ix2 p j)
      = v (ix2 p j) + k0_pay1 (F := Ideal) v41 v44 v48 (ix2 p (th1 j)) * w (ix2 p j) := by
  unfold k0_pay4
  rw [addf_apply, mulf_apply, pay2_apply]

/-- The updated Cartesian channels of component 1, from the blocks its payload reads. -/
theorem pay5_apply (v : FVec Ideal S400x512 .f32) (w : FVec Ideal S400x512 .f32) (v41 : FVec Ideal S400x512 .f32)
    (v44 : Vec Ideal S512x1536 .bf16) (v48 : Vec Ideal S1536 .f32) (p : Fin 400) (j : Fin 512) :
    k0_pay5 (F := Ideal) v w v41 v44 v48 (ix2 p j)
      = v (ix2 p j) + k0_pay1 (F := Ideal) v41 v44 v48 (ix2 p (th1 j)) * w (ix2 p j) := by
  unfold k0_pay5
  rw [addf_apply, mulf_apply, pay2_apply]

/-- The updated Cartesian channels of component 2, from the blocks its payload reads. -/
theorem pay6_apply (v : FVec Ideal S400x512 .f32) (w : FVec Ideal S400x512 .f32) (v41 : FVec Ideal S400x512 .f32)
    (v44 : Vec Ideal S512x1536 .bf16) (v48 : Vec Ideal S1536 .f32) (p : Fin 400) (j : Fin 512) :
    k0_pay6 (F := Ideal) v w v41 v44 v48 (ix2 p j)
      = v (ix2 p j) + k0_pay1 (F := Ideal) v41 v44 v48 (ix2 p (th1 j)) * w (ix2 p j) := by
  unfold k0_pay6
  rw [addf_apply, mulf_apply, pay2_apply]

/-! ## The two output blocks -/

/-- The zero offsets of a whole-block rectangle of rank 2. -/
theorem hz2 : (![0, 0] : Fin 2 → Nat) = fun _ => 0 := by
  funext a; match a with | ⟨0, _⟩ => rfl | ⟨1, _⟩ => rfl
/-- The zero offset of a whole-block rectangle of rank 1. -/
theorem hz1 : (![0] : Fin 1 → Nat) = fun _ => 0 := by
  funext a; match a with | ⟨0, _⟩ => rfl

/-- The scalar output block at `[p, j]`. -/
theorem out8_apply (p : Fin 400) (j : Fin 512) :
    out0_8 (F := Ideal) x0 x1 x2 x3 x4 x5 x6 x7 (ix2 p j)
      = qNew (qBlkRow x0 p) (muBlkRow x1 p) (wT x2) (wT x3) (wT x4) (fun g => x6 (ix1 g)) (wT x5) (fun k => x7 (ix1 k)) j := by
  unfold out0_8
  rw [View.canon_unit_zero hz2]
  simp only [View.ld_unit_zero (S := S400x512) hz2, View.ld_unit_zero (S := S400x1536) hz2,
    View.ld_unit_zero (S := S512x1024) hz2, View.ld_unit_zero (S := S512x512) hz2, View.ld_unit_zero (S := S512x1536) hz2,
    View.ld_unit_zero (S := S512) hz1, View.ld_unit_zero (S := S1536) hz1]
  rw [pay3_apply, pay7_eq, pay16_apply, pay17_apply, pay18_apply, pay19_apply, pay20_apply, pay21_apply, xo_apply, xo_apply]
  rfl

/-- Column `512 d + j` of row `p` lies in the store rectangle of the third `d`, at `[p, j]` inside it. -/
theorem col3_emb7 (p : Fin 400) (j : Fin 512) : ix2 p (col3 0 j) = r0_7.emb (ix2 p j) := by
  funext a; refine Fin.ext ?_
  match a with
  | ⟨0, _⟩ => show p.val = 0 + 1 * p.val; omega
  | ⟨1, _⟩ => show 512 * 0 + j.val = 0 + 1 * j.val; omega
theorem col3_emb8 (p : Fin 400) (j : Fin 512) : ix2 p (col3 1 j) = r0_8.emb (ix2 p j) := by
  funext a; refine Fin.ext ?_
  match a with
  | ⟨0, _⟩ => show p.val = 0 + 1 * p.val; omega
  | ⟨1, _⟩ => show 512 * 1 + j.val = 512 + 1 * j.val; omega
theorem col3_emb9 (p : Fin 400) (j : Fin 512) : ix2 p (col3 2 j) = r0_9.emb (ix2 p j) := by
  funext a; refine Fin.ext ?_
  match a with
  | ⟨0, _⟩ => show p.val = 0 + 1 * p.val; omega
  | ⟨1, _⟩ => show 512 * 2 + j.val = 1024 + 1 * j.val; omega

/-- A column of the first two thirds is outside the last third's rectangle. -/
theorem not_mem9 (p : Fin 400) (c : Fin 1536) (hc : c.val < 1024) : ix2 p c ∉ r0_9.set := fun h => by
  have h1 : 1024 ≤ c.val := (Rect.mem_set_unit.mp h 1).1
  omega
/-- A column of the first third is outside the middle third's rectangle. -/
theorem not_mem8 (p : Fin 400) (c : Fin 1536) (hc : c.val < 512) : ix2 p c ∉ r0_8.set := fun h => by
  have h1 : 512 ≤ c.val := (Rect.mem_set_unit.mp h 1).1
  omega

/-- Off the newest store's rectangle the block reads what the earlier stores left. -/
theorem canon_skip {S : Shape} {e : EltTy} (r : Rect S) (w : r.shape.Idx → Elt Ideal e)
    (L : List (View.Piece (Elt Ideal) S e)) {y : S.Idx} (h : y ∉ r.set) :
    View.canon (⟨r, w⟩ :: L) y = View.canon L y :=
  View.canon_cons_of_not_mem ⟨r, w⟩ L h

/-- The Cartesian output block at `[p, 512 d + j]`. -/
theorem out9_apply (p : Fin 400) (d : Fin 3) (j : Fin 512) :
    out0_9 (F := Ideal) x0 x1 x2 x3 x4 x5 x6 x7 (ix2 p (col3 d j))
      = muNew (qBlkRow x0 p) (muBlkRow x1 p) (wT x2) (wT x3) (wT x4) (fun g => x6 (ix1 g)) (wT x5) (fun k => x7 (ix1 k)) d j := by
  unfold out0_9
  simp only [View.ld_unit_zero (S := S400x512) hz2, View.ld_unit_zero (S := S400x1536) hz2,
    View.ld_unit_zero (S := S512x1024) hz2, View.ld_unit_zero (S := S512x512) hz2, View.ld_unit_zero (S := S512x1536) hz2,
    View.ld_unit_zero (S := S512) hz1, View.ld_unit_zero (S := S1536) hz1]
  match d with
  | ⟨0, _⟩ =>
    refine (canon_skip r0_9 _ _ (not_mem9 p (col3 0 j) (by show 512 * 0 + j.val < 1024; omega))).trans ?_
    refine (canon_skip r0_8 _ _ (not_mem8 p (col3 0 j) (by show 512 * 0 + j.val < 512; omega))).trans ?_
    refine (congrArg _ (col3_emb7 p j)).trans ((View.canon_cons_emb r0_7 _ _ (ix2 p j)).trans ?_)
    rw [pay4_apply, pay9_apply, pay17_apply, xo_apply]
    rfl
  | ⟨1, _⟩ =>
    refine (canon_skip r0_9 _ _ (not_mem9 p (col3 1 j) (by show 512 * 1 + j.val < 1024; omega))).trans ?_
    refine (congrArg _ (col3_emb8 p j)).trans ((View.canon_cons_emb r0_8 _ _ (ix2 p j)).trans ?_)
    rw [pay5_apply, pay10_apply, pay19_apply, xo_apply]
    rfl
  | ⟨2, _⟩ =>
    refine (congrArg _ (col3_emb9 p j)).trans ((View.canon_cons_emb r0_9 _ _ (ix2 p j)).trans ?_)
    rw [pay6_apply, pay11_apply, pay21_apply, xo_apply]
    rfl

end Cert.MixBlock

end
-- ==== Proof.ArrayValue.lean ====
/-
  The kernel's run, read as values: the two result arrays as functions of the seven arguments.

  The region is entered after the host has flattened `q` to `[50000, 512]` and `μ` to `[50000, 1536]` (component `d` of
  row `n` in columns `512 d … 512 d + 511`) and has transposed the three weight matrices (the first layer's in two
  halves). Grid point `t` works on rows `400 t … 400 t + 399`: its two row blocks are those rows of the flattened
  arrays, the weights and biases come whole. By the block lemmas each output block is the row functions `qNew` /
  `muNew` of exactly those rows, so the 125 blocks written back tile the two output arrays with the flattened
  `qOut` / `muOut`; the host's two reshapes after the region undo the flattening.
-/
import proofs.«107358_j34394098106847_1_alg».proof.Proof.Gen.KernelIdeal.Frame
import proofs.«107358_j34394098106847_1_alg».proof.Proof.Spec
import proofs.«107358_j34394098106847_1_alg».proof.Proof.BlockValue
import Idealize.ShloMosaic.Lib.Pipeline.Value
import Idealize.ShloMosaic.Lib.ValueLayout
import Idealize.ShloMosaic.Lib.StableHlo.Run

noncomputable section

namespace Cert.MixArr

open Cert.KernelIdeal Cert.KernelIdeal.Gen Idealize.ShloMosaic Idealize.ShloMosaic.TcCoe Idealize.SL.Sem Idealize.ShloMosaic.StableHlo
open Idealize.ShloMosaic.ValueIdx Cert.MixRow Cert.MixSpec Cert.MixBlock
open Idealize.ShloMosaic.Pipeline (Dat)

variable (m : (ℓ : Loc nD τ sig) → Buf (Elt Ideal) ℓ) (ρ : Dev nD → PrngReg)

/-! ## The seven arguments, as launched -/

abbrev aq (c : Dev nD) : S50000x1x512.Idx → EReal := m ((c : Thread nD τ).loc main_arg0)
abbrev amu (c : Dev nD) : S50000x3x512.Idx → EReal := m ((c : Thread nD τ).loc main_arg1)
abbrev aWm (c : Dev nD) : S1024x512.Idx → EReal := m ((c : Thread nD τ).loc main_arg2)
abbrev aW1 (c : Dev nD) : S512x1024.Idx → EReal := m ((c : Thread nD τ).loc main_arg3)
abbrev ab1 (c : Dev nD) : S512.Idx → EReal := m ((c : Thread nD τ).loc main_arg4)
abbrev aW2 (c : Dev nD) : S1536x512.Idx → EReal := m ((c : Thread nD τ).loc main_arg5)
abbrev ab2 (c : Dev nD) : S1536.Idx → EReal := m ((c : Thread nD τ).loc main_arg6)

/-! ## Flattening a row-major array keeps its entries -/

/-- `[50000, 1, 512]` flattened to `[50000, 512]`: entry `(r, f)` is entry `(r, 0, f)`. -/
theorem flat_q (X : S50000x1x512.Idx → EReal) (r : Fin 50000) (f : Fin 512) :
    shapeCast S50000x512 X shapeCasts_S50000x1x512_S50000x512 (ix2 r f) = X (ix3 r (0 : Fin 1) f) := by
  refine shapeCast_apply _ _ _ _ ?_
  rw [Shape.rowMajor_val_three, Shape.rowMajor_val_two]
  show (r.val * 1 + 0) * 512 + f.val = r.val * 512 + f.val
  omega

/-- `[50000, 3, 512]` flattened to `[50000, 1536]`: entry `(r, 512 d + f)` is entry `(r, d, f)`. -/
theorem flat_mu (X : S50000x3x512.Idx → EReal) (r : Fin 50000) (d : Fin 3) (f : Fin 512) :
    shapeCast S50000x1536 X shapeCasts_S50000x3x512_S50000x1536 (ix2 r (col3 d f)) = X (ix3 r d f) := by
  refine shapeCast_apply _ _ _ _ ?_
  rw [Shape.rowMajor_val_three, Shape.rowMajor_val_two]
  show (r.val * 3 + d.val) * 512 + f.val = r.val * 1536 + (512 * d.val + f.val)
  omega

/-! ## The arrays the region finds -/

theorem V_v0 (c : Dev nD) : (V m c main_v0 : S50000x512.Idx → EReal)
    = shapeCast S50000x512 (aq m c) shapeCasts_S50000x1x512_S50000x512 := by
  show StableHlo.after hostOps0 (fun b => m (c, b)) (Proc.devRef .tc main_v0) = _
  after_results
  rfl

theorem V_v1 (c : Dev nD) : (V m c main_v1 : S50000x1536.Idx → EReal)
    = shapeCast S50000x1536 (amu m c) shapeCasts_S50000x3x512_S50000x1536 := by
  show StableHlo.after hostOps0 (fun b => m (c, b)) (Proc.devRef .tc main_v1) = _
  after_results
  rfl

theorem V_v3 (c : Dev nD) : (V m c main_v3 : S512x1024.Idx → EReal)
    = truncf (F := Ideal) .bf16 (transpose S512x1024 [1, 0] (aWm m c) transposes_S1024x512_S512x1024_1_0) bitsLt_bf16_f32 := by
  show StableHlo.after hostOps0 (fun b => m (c, b)) (Proc.devRef .tc main_v3) = _
  after_results

theorem V_v6 (c : Dev nD) : (V m c main_v6 : S512x512.Idx → EReal)
    = truncf (F := Ideal) .bf16 (extractStridedSlice S512x512 ![0, 0]
        (transpose S1024x512 [1, 0] (aW1 m c) transposes_S512x1024_S1024x512_1_0) slices_S1024x512_S512x512_0_0) bitsLt_bf16_f32 := by
  show StableHlo.after hostOps0 (fun b => m (c, b)) (Proc.devRef .tc main_v6) = _
  after_results

theorem V_v8 (c : Dev nD) : (V m c main_v8 : S512x512.Idx → EReal)
    = truncf (F := Ideal) .bf16 (extractStridedSlice S512x512 ![512, 0]
        (transpose S1024x512 [1, 0] (aW1 m c) transposes_S512x1024_S1024x512_1_0) slices_S1024x512_S512x512_512_0) bitsLt_bf16_f32 := by
  show StableHlo.after hostOps0 (fun b => m (c, b)) (Proc.devRef .tc main_v8) = _
  after_results

theorem V_v10 (c : Dev nD) : (V m c main_v10 : S512x1536.Idx → EReal)
    = truncf (F := Ideal) .bf16 (transpose S512x1536 [1, 0] (aW2 m c) transposes_S1536x512_S512x1536_1_0) bitsLt_bf16_f32 := by
  show StableHlo.after hostOps0 (fun b => m (c, b)) (Proc.devRef .tc main_v10) = _
  after_results

/-- The transposed mixing weight: entry `(f, g)` is `Wm[g, f]`. -/
theorem V_v3_apply (c : Dev nD) (f : Fin 512) (g : Fin 1024) :
    (V m c main_v3 : S512x1024.Idx → EReal) (ix2 f g) = aWm m c (ix2 g f) := by
  rw [V_v3]
  exact transpose_ix2_apply (aWm m c) transposes_S1024x512_S512x1024_1_0 f g

/-- The first half of the transposed first-layer weight: entry `(f, g)` is `W1[g, f]`. -/
theorem V_v6_apply (c : Dev nD) (f g : Fin 512) :
    (V m c main_v6 : S512x512.Idx → EReal) (ix2 f g) = aW1 m c (ix2 g (lo f)) := by
  rw [V_v6]
  show extractStridedSlice S512x512 ![0, 0] (transpose S1024x512 [1, 0] (aW1 m c) transposes_S512x1024_S1024x512_1_0)
    slices_S1024x512_S512x512_0_0 (ix2 f g) = _
  refine (slice2_axis0_apply 0 _ _ f g (lo f) (by show f.val = 0 + f.val; omega)).trans ?_
  exact transpose_ix2_apply (aW1 m c) transposes_S512x1024_S1024x512_1_0 (lo f) g

/-- The second half of the transposed first-layer weight: entry `(f, g)` is `W1[g, 512 + f]`. -/
theorem V_v8_apply (c : Dev nD) (f g : Fin 512) :
    (V m c main_v8 : S512x512.Idx → EReal) (ix2 f g) = aW1 m c (ix2 g (hi f)) := by
  rw [V_v8]
  show extractStridedSlice S512x512 ![512, 0] (transpose S1024x512 [1, 0] (aW1 m c) transposes_S512x1024_S1024x512_1_0)
    slices_S1024x512_S512x512_512_0 (ix2 f g) = _
  refine (slice2_axis0_apply 512 _ _ f g (hi f) (by show 512 + f.val = 512 + f.val; rfl)).trans ?_
  exact transpose_ix2_apply (aW1 m c) transposes_S512x1024_S1024x512_1_0 (hi f) g

/-- The transposed second-layer weight: entry `(g, k)` is `W2[k, g]`. -/
theorem V_v10_apply (c : Dev nD) (g : Fin 512) (k : Fin 1536) :
    (V m c main_v10 : S512x1536.Idx → EReal) (ix2 g k) = aW2 m c (ix2 k g) := by
  rw [V_v10]
  exact transpose_ix2_apply (aW2 m c) transposes_S1536x512_S512x1536_1_0 g k

/-! ## The blocks of a grid point -/

/-- The index maps of the row-tiled windows (both inputs, both outputs): point `t` takes row block `t`, column block 0. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The index maps of the weights: every point takes the one block there is. -/
theorem idx_weights : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The index maps of the biases: every point takes the one block there is. -/
theorem idx_biases : ∀ t : Fin cfg0.N, win0_6.index t (0 : Fin 1) = 0 ∧ win0_7.index t (0 : Fin 1) = 0 :=
  (by decide +kernel : ∀ t : Fin grid0.N, _)

/-- Row `p` of grid point `t`'s blocks is row `400 t + p` of the arrays. -/
def rowOf (t : Fin cfg0.N) (p : Fin 400) : Fin 50000 :=
  ⟨400 * t.val + p.val, by have := t.isLt; have : cfg0.N = 125 := N_0; omega⟩

abbrev blk0 (c : Dev nD) (t : Fin cfg0.N) : Vec Ideal S400x512 .f32 := iblk m c 0 t
abbrev blk1 (c : Dev nD) (t : Fin cfg0.N) : Vec Ideal S400x1536 .f32 := iblk m c 1 t
abbrev blk2 (c : Dev nD) (t : Fin cfg0.N) : Vec Ideal S512x1024 .bf16 := iblk m c 2 t
abbrev blk3 (c : Dev nD) (t : Fin cfg0.N) : Vec Ideal S512x512 .bf16 := iblk m c 3 t
abbrev blk4 (c : Dev nD) (t : Fin cfg0.N) : Vec Ideal S512x512 .bf16 := iblk m c 4 t
abbrev blk5 (c : Dev nD) (t : Fin cfg0.N) : Vec Ideal S512x1536 .bf16 := iblk m c 5 t
abbrev blk6 (c : Dev nD) (t : Fin cfg0.N) : Vec Ideal S512 .f32 := iblk m c 6 t
abbrev blk7 (c : Dev nD) (t : Fin cfg0.N) : Vec Ideal S1536 .f32 := iblk m c 7 t

/-- Where an entry of a row-tiled block sits in its array. -/
theorem emb0 (t : Fin cfg0.N) (p : Fin 400) (f : Fin 512) : ((cfg0.win 0).blk t).view.emb (ix2 p f) = ix2 (rowOf t p) f := by
  funext a; refine Fin.ext ?_
  obtain ⟨e0, e1, -⟩ := idx_rows t
  match a with
  | ⟨0, _⟩ => show win0_0.index t (0 : Fin 2) * 400 + 1 * p.val = 400 * t.val + p.val; omega
  | ⟨1, _⟩ => show win0_0.index t (1 : Fin 2) * 512 + 1 * f.val = f.val; omega
theorem emb1 (t : Fin cfg0.N) (p : Fin 400) (k : Fin 1536) : ((cfg0.win 1).blk t).view.emb (ix2 p k) = ix2 (rowOf t p) k := by
  funext a; refine Fin.ext ?_
  obtain ⟨-, -, e0, e1, -⟩ := idx_rows t
  match a with
  | ⟨0, _⟩ => show win0_1.index t (0 : Fin 2) * 400 + 1 * p.val = 400 * t.val + p.val; omega
  | ⟨1, _⟩ => show win0_1.index t (1 : Fin 2) * 1536 + 1 * k.val = k.val; omega
theorem emb8 (t : Fin cfg0.N) (p : Fin 400) (f : Fin 512) : ((cfg0.win 8).blk t).view.emb (ix2 p f) = ix2 (rowOf t p) f := by
  funext a; refine Fin.ext ?_
  obtain ⟨-, -, -, -, e0, e1, -⟩ := idx_rows t
  match a with
  | ⟨0, _⟩ => show win0_8.index t (0 : Fin 2) * 400 + 1 * p.val = 400 * t.val + p.val; omega
  | ⟨1, _⟩ => show win0_8.index t (1 : Fin 2) * 512 + 1 * f.val = f.val; omega
theorem emb9 (t : Fin cfg0.N) (p : Fin 400) (k : Fin 1536) : ((cfg0.win 9).blk t).view.emb (ix2 p k) = ix2 (rowOf t p) k := by
  funext a; refine Fin.ext ?_
  obtain ⟨-, -, -, -, -, -, e0, e1⟩ := idx_rows t
  match a with
  | ⟨0, _⟩ => show win0_9.index t (0 : Fin 2) * 400 + 1 * p.val = 400 * t.val + p.val; omega
  | ⟨1, _⟩ => show win0_9.index t (1 : Fin 2) * 1536 + 1 * k.val = k.val; omega
/-- A weight's block is the whole weight. -/
theorem emb2 (t : Fin cfg0.N) (f : Fin 512) (g : Fin 1024) : ((cfg0.win 2).blk t).view.emb (ix2 f g) = ix2 f g := by
  funext a; refine Fin.ext ?_
  obtain ⟨e0, e1, -⟩ := idx_weights t
  match a with
  | ⟨0, _⟩ => show win0_2.index t (0 : Fin 2) * 512 + 1 * f.val = f.val; omega
  | ⟨1, _⟩ => show win0_2.index t (1 : Fin 2) * 1024 + 1 * g.val = g.val; omega
theorem emb3 (t : Fin cfg0.N) (f g : Fin 512) : ((cfg0.win 3).blk t).view.emb (ix2 f g) = ix2 f g := by
  funext a; refine Fin.ext ?_
  obtain ⟨-, -, e0, e1, -⟩ := idx_weights t
  match a with
  | ⟨0, _⟩ => show win0_3.index t (0 : Fin 2) * 512 + 1 * f.val = f.val; omega
  | ⟨1, _⟩ => show win0_3.index t (1 : Fin 2) * 512 + 1 * g.val = g.val; omega
theorem emb4 (t : Fin cfg0.N) (f g : Fin 512) : ((cfg0.win 4).blk t).view.emb (ix2 f g) = ix2 f g := by
  funext a; refine Fin.ext ?_
  obtain ⟨-, -, -, -, e0, e1, -⟩ := idx_weights t
  match a with
  | ⟨0, _⟩ => show win0_4.index t (0 : Fin 2) * 512 + 1 * f.val = f.val; omega
  | ⟨1, _⟩ => show win0_4.index t (1 : Fin 2) * 512 + 1 * g.val = g.val; omega
theorem emb5 (t : Fin cfg0.N) (g : Fin 512) (k : Fin 1536) : ((cfg0.win 5).blk t).view.emb (ix2 g k) = ix2 g k := by
  funext a; refine Fin.ext ?_
  obtain ⟨-, -, -, -, -, -, e0, e1⟩ := idx_weights t
  match a with
  | ⟨0, _⟩ => show win0_5.index t (0 : Fin 2) * 512 + 1 * g.val = g.val; omega
  | ⟨1, _⟩ => show win0_5.index t (1 : Fin 2) * 1536 + 1 * k.val = k.val; omega
/-- A bias's block is the whole bias. -/
theorem emb6 (t : Fin cfg0.N) (g : Fin 512) : ((cfg0.win 6).blk t).view.emb (ix1 g) = ix1 g := by
  funext a; refine Fin.ext ?_
  obtain ⟨e0, -⟩ := idx_biases t
  match a with
  | ⟨0, _⟩ => show win0_6.index t (0 : Fin 1) * 512 + 1 * g.val = g.val; omega
theorem emb7 (t : Fin cfg0.N) (k : Fin 1536) : ((cfg0.win 7).blk t).view.emb (ix1 k) = ix1 k := by
  funext a; refine Fin.ext ?_
  obtain ⟨-, e0⟩ := idx_biases t
  match a with
  | ⟨0, _⟩ => show win0_7.index t (0 : Fin 1) * 1536 + 1 * k.val = k.val; omega

/-! ## The row data of a grid point are the row data of the arguments -/

theorem rows_q (c : Dev nD) (t : Fin cfg0.N) (p : Fin 400) : qBlkRow (blk0 m c t) p = qRow (aq m c) (rowOf t p) := by
  funext f
  show (V m c main_v0 : S50000x512.Idx → EReal) (((cfg0.win 0).blk t).view.emb (ix2 p f)) = aq m c (ix3 (rowOf t p) (0 : Fin 1) f)
  exact (congrArg (V m c main_v0 : S50000x512.Idx → EReal) (emb0 t p f)).trans ((congrFun (V_v0 m c) _).trans (flat_q _ _ _))

theorem rows_mu (c : Dev nD) (t : Fin cfg0.N) (p : Fin 400) : muBlkRow (blk1 m c t) p = muRow (amu m c) (rowOf t p) := by
  funext d f
  show (V m c main_v1 : S50000x1536.Idx → EReal) (((cfg0.win 1).blk t).view.emb (ix2 p (col3 d f))) = amu m c (ix3 (rowOf t p) d f)
  exact (congrArg (V m c main_v1 : S50000x1536.Idx → EReal) (emb1 t p _)).trans ((congrFun (V_v1 m c) _).trans (flat_mu _ _ _ _))

theorem rows_wm (c : Dev nD) (t : Fin cfg0.N) : wT (blk2 m c t) = wmMat (aWm m c) := by
  funext g f
  show (V m c main_v3 : S512x1024.Idx → EReal) (((cfg0.win 2).blk t).view.emb (ix2 f g)) = aWm m c (ix2 g f)
  exact (congrArg (V m c main_v3 : S512x1024.Idx → EReal) (emb2 t f g)).trans (V_v3_apply m c f g)

theorem rows_w1a (c : Dev nD) (t : Fin cfg0.N) : wT (blk3 m c t) = w1aMat (aW1 m c) := by
  funext g f
  show (V m c main_v6 : S512x512.Idx → EReal) (((cfg0.win 3).blk t).view.emb (ix2 f g)) = aW1 m c (ix2 g (lo f))
  exact (congrArg (V m c main_v6 : S512x512.Idx → EReal) (emb3 t f g)).trans (V_v6_apply m c f g)

theorem rows_w1b (c : Dev nD) (t : Fin cfg0.N) : wT (blk4 m c t) = w1bMat (aW1 m c) := by
  funext g f
  show (V m c main_v8 : S512x512.Idx → EReal) (((cfg0.win 4).blk t).view.emb (ix2 f g)) = aW1 m c (ix2 g (hi f))
  exact (congrArg (V m c main_v8 : S512x512.Idx → EReal) (emb4 t f g)).trans (V_v8_apply m c f g)

theorem rows_w2 (c : Dev nD) (t : Fin cfg0.N) : wT (blk5 m c t) = w2Mat (aW2 m c) := by
  funext k g
  show (V m c main_v10 : S512x1536.Idx → EReal) (((cfg0.win 5).blk t).view.emb (ix2 g k)) = aW2 m c (ix2 k g)
  exact (congrArg (V m c main_v10 : S512x1536.Idx → EReal) (emb5 t g k)).trans (V_v10_apply m c g k)

theorem rows_b1 (c : Dev nD) (t : Fin cfg0.N) : (fun g : Fin 512 => blk6 m c t (ix1 g)) = b1Vec (ab1 m c) := by
  funext g
  show (V m c main_arg4 : S512.Idx → EReal) (((cfg0.win 6).blk t).view.emb (ix1 g)) = ab1 m c (ix1 g)
  exact (congrArg (V m c main_arg4 : S512.Idx → EReal) (emb6 t g)).trans (congrFun (V_main_arg4 m c) _)

theorem rows_b2 (c : Dev nD) (t : Fin cfg0.N) : (fun k : Fin 1536 => blk7 m c t (ix1 k)) = b2Vec (ab2 m c) := by
  funext k
  show (V m c main_arg6 : S1536.Idx → EReal) (((cfg0.win 7).blk t).view.emb (ix1 k)) = ab2 m c (ix1 k)
  exact (congrArg (V m c main_arg6 : S1536.Idx → EReal) (emb7 t k)).trans (congrFun (V_main_arg6 m c) _)

/-! ## What each point writes back -/

/-- The first result, flattened as the region stores it. -/
def G8 (c : Dev nD) : S50000x512.Idx → EReal :=
  shapeCast S50000x512 (qOut (aq m c) (amu m c) (aWm m c) (aW1 m c) (ab1 m c) (aW2 m c) (ab2 m c)) shapeCasts_S50000x1x512_S50000x512

/-- The second result, flattened as the region stores it. -/
def G9 (c : Dev nD) : S50000x1536.Idx → EReal :=
  shapeCast S50000x1536 (muOut (aq m c) (amu m c) (aWm m c) (aW1 m c) (ab1 m c) (aW2 m c) (ab2 m c)) shapeCasts_S50000x3x512_S50000x1536

/-- Every column of a 1536-wide row is column `j` of some Cartesian component `d`. -/
theorem exists_col3 (k : Fin 1536) : ∃ (d : Fin 3) (j : Fin 512), k = col3 d j :=
  ⟨⟨k.val / 512, by have := k.isLt; omega⟩, ⟨k.val % 512, Nat.mod_lt _ (by decide)⟩, Fin.ext (by show k.val = 512 * (k.val / 512) + k.val % 512; omega)⟩

/-- Point `t` writes back block `t` of the flattened first result. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  funext y
  obtain ⟨p, j, rfl⟩ : ∃ (p : Fin 400) (j : Fin 512), y = ix2 p j := ⟨y 0, y 1, eq_ix2 y⟩
  show out0_8 (blk0 m c t) (blk1 m c t) (blk2 m c t) (blk3 m c t) (blk4 m c t) (blk5 m c t) (blk6 m c t) (blk7 m c t) (ix2 p j)
    = G8 m c (((cfg0.win 8).blk t).view.emb (ix2 p j))
  rw [emb8, out8_apply, rows_q, rows_mu, rows_wm, rows_w1a, rows_w1b, rows_w2, rows_b1, rows_b2]
  exact (flat_q (qOut (aq m c) (amu m c) (aWm m c) (aW1 m c) (ab1 m c) (aW2 m c) (ab2 m c)) (rowOf t p) j).symm

/-- Point `t` writes back block `t` of the flattened second result. -/
theorem flushed9_eq (c : Dev nD) (t : Fin cfg0.N) :
    (dats m 0 c).flushed 9 t = ((cfg0.win 9).blk t).view.read (Elt Ideal) (G9 m c) := by
  show (cfg0.win 9).cut (grid0.coords t) ((dats m 0 c).after 9 t) = _
  rw [after0_9]
  funext y
  obtain ⟨p, k, rfl⟩ : ∃ (p : Fin 400) (k : Fin 1536), y = ix2 p k := ⟨y 0, y 1, eq_ix2 y⟩
  obtain ⟨d, j, rfl⟩ := exists_col3 k
  show out0_9 (blk0 m c t) (blk1 m c t) (blk2 m c t) (blk3 m c t) (blk4 m c t) (blk5 m c t) (blk6 m c t) (blk7 m c t) (ix2 p (col3 d j))
    = G9 m c (((cfg0.win 9).blk t).view.emb (ix2 p (col3 d j)))
  rw [emb9, out9_apply, rows_q, rows_mu, rows_wm, rows_w1a, rows_w1b, rows_w2, rows_b1, rows_b2]
  exact (flat_mu (muOut (aq m c) (amu m c) (aWm m c) (aW1 m c) (ab1 m c) (aW2 m c) (ab2 m c)) (rowOf t p) d j).symm

/-! ## The blocks tile the output arrays -/

theorem mem_blk8 (t : Fin cfg0.N) (i : S50000x512.Idx) :
    i ∈ ((cfg0.win 8).blk t).view.set ↔ ∀ a : Fin 2, win0_8.index t a * S400x512.size a ≤ (i a).val ∧ (i a).val < win0_8.index t a * S400x512.size a + S400x512.size a := by
  show i ∈ ((View.whole main_v11_0).slice (win0_8.rect t)).set ↔ _
  rw [View.set_slice_whole, Rect.mem_set_unit]
  exact Iff.rfl

theorem mem_blk9 (t : Fin cfg0.N) (i : S50000x1536.Idx) :
    i ∈ ((cfg0.win 9).blk t).view.set ↔ ∀ a : Fin 2, win0_9.index t a * S400x1536.size a ≤ (i a).val ∧ (i a).val < win0_9.index t a * S400x1536.size a + S400x1536.size a := by
  show i ∈ ((View.whole main_v11_1).slice (win0_9.rect t)).set ↔ _
  rw [View.set_slice_whole, Rect.mem_set_unit]
  exact Iff.rfl

/-- Row `r` lies in the block of point `r / 400`. -/
theorem cover8 (i : S50000x512.Idx) : ∃ t : Fin cfg0.N, (cfg0.win 8).flush t = true ∧ i ∈ ((cfg0.win 8).blk t).view.set := by
  have hi0 : (i 0).val < 50000 := (i 0).isLt
  have hi1 : (i 1).val < 512 := (i 1).isLt
  have hN : cfg0.N = 125 := N_0
  refine ⟨⟨(i 0).val / 400, by omega⟩, flush0_8 _, ?_⟩
  rw [mem_blk8]
  obtain ⟨-, -, -, -, e0, e1, -⟩ := idx_rows ⟨(i 0).val / 400, by omega⟩
  intro a
  match a with
  | ⟨0, _⟩ =>
    show win0_8.index _ (0 : Fin 2) * 400 ≤ (i 0).val ∧ (i 0).val < win0_8.index _ (0 : Fin 2) * 400 + 400
    rw [e0]; show (i 0).val / 400 * 400 ≤ (i 0).val ∧ (i 0).val < (i 0).val / 400 * 400 + 400; omega
  | ⟨1, _⟩ =>
    show win0_8.index _ (1 : Fin 2) * 512 ≤ (i 1).val ∧ (i 1).val < win0_8.index _ (1 : Fin 2) * 512 + 512
    rw [e1]; omega

theorem cover9 (i : S50000x1536.Idx) : ∃ t : Fin cfg0.N, (cfg0.win 9).flush t = true ∧ i ∈ ((cfg0.win 9).blk t).view.set := by
  have hi0 : (i 0).val < 50000 := (i 0).isLt
  have hi1 : (i 1).val < 1536 := (i 1).isLt
  have hN : cfg0.N = 125 := N_0
  refine ⟨⟨(i 0).val / 400, by omega⟩, flush0_9 _, ?_⟩
  rw [mem_blk9]
  obtain ⟨-, -, -, -, -, -, e0, e1⟩ := idx_rows ⟨(i 0).val / 400, by omega⟩
  intro a
  match a with
  | ⟨0, _⟩ =>
    show win0_9.index _ (0 : Fin 2) * 400 ≤ (i 0).val ∧ (i 0).val < win0_9.index _ (0 : Fin 2) * 400 + 400
    rw [e0]; show (i 0).val / 400 * 400 ≤ (i 0).val ∧ (i 0).val < (i 0).val / 400 * 400 + 400; omega
  | ⟨1, _⟩ =>
    show win0_9.index _ (1 : Fin 2) * 1536 ≤ (i 1).val ∧ (i 1).val < win0_9.index _ (1 : Fin 2) * 1536 + 1536
    rw [e1]; omega

/-- After the region the first output array is the flattened first result. -/
theorem final8 (c : Dev nD) : (dats m 0 c).arrAt 8 cfg0.N = G8 m c :=
  (dats m 0 c).arrAt_eq_of_cover 8 (G8 m c) (fun t _ => flushed8_eq m c t) cover8

/-- After the region the second output array is the flattened second result. -/
theorem final9 (c : Dev nD) : (dats m 0 c).arrAt 9 cfg0.N = G9 m c :=
  (dats m 0 c).arrAt_eq_of_cover 9 (G9 m c) (fun t _ => flushed9_eq m c t) cover9

/-! ## The host's two reshapes after the region, and the run -/

/-- The first result: the first output array, un-flattened. -/
theorem tail_q (c : Dev nD) :
    Pipeline.afterTail₀ cfgs (dats m) 0 (V0 m) [hostOps1] c main_v12
      = qOut (aq m c) (amu m c) (aWm m c) (aW1 m c) (ab1 m c) (aW2 m c) (ab2 m c) := by
  have e : Pipeline.withArrays (cfgs 0).spec c (V0 m c) (fun w => (dats m 0 c).arrAt w (cfgs 0).N) (Proc.devRef .tc main_v11_0)
      = G8 m c := (Pipeline.withArrays_arr spec0 launch0.win.arr_inj c _ _ 8).trans (final8 m c)
  unfold Pipeline.afterTail₀
  show StableHlo.after hostOps1 _ (Proc.devRef .tc main_v12) = _
  after_results
  show shapeCast S50000x1x512 (Pipeline.withArrays (cfgs 0).spec c (V0 m c) (fun w => (dats m 0 c).arrAt w (cfgs 0).N)
    (Proc.devRef .tc main_v11_0)) shapeCasts_S50000x512_S50000x1x512 = _
  exact (congrArg (fun X : S50000x512.Idx → EReal => shapeCast S50000x1x512 X shapeCasts_S50000x512_S50000x1x512) e).trans
    (shapeCast_shapeCast _ shapeCasts_S50000x1x512_S50000x512 shapeCasts_S50000x512_S50000x1x512)

/-- The second result: the second output array, un-flattened. -/
theorem tail_mu (c : Dev nD) :
    Pipeline.afterTail₀ cfgs (dats m) 0 (V0 m) [hostOps1] c main_v13
      = muOut (aq m c) (amu m c) (aWm m c) (aW1 m c) (ab1 m c) (aW2 m c) (ab2 m c) := by
  have e : Pipeline.withArrays (cfgs 0).spec c (V0 m c) (fun w => (dats m 0 c).arrAt w (cfgs 0).N) (Proc.devRef .tc main_v11_1)
      = G9 m c := (Pipeline.withArrays_arr spec0 launch0.win.arr_inj c _ _ 9).trans (final9 m c)
  unfold Pipeline.afterTail₀
  show StableHlo.after hostOps1 _ (Proc.devRef .tc main_v13) = _
  after_results
  show shapeCast S50000x3x512 (Pipeline.withArrays (cfgs 0).spec c (V0 m c) (fun w => (dats m 0 c).arrAt w (cfgs 0).N)
    (Proc.devRef .tc main_v11_1)) shapeCasts_S50000x1536_S50000x3x512 = _
  exact (congrArg (fun X : S50000x1536.Idx → EReal => shapeCast S50000x3x512 X shapeCasts_S50000x1536_S50000x3x512) e).trans
    (shapeCast_shapeCast _ shapeCasts_S50000x3x512_S50000x1536 shapeCasts_S50000x1536_S50000x3x512)

/-- Every weakly fair execution of the idealized kernel program terminates with its two results at `qOut` and `muOut` of
    the arguments, the arguments unchanged. -/
theorem run : θ_run defs (onTc (τ := τ) (main (F := Ideal))) ⟨m, fun _ => 0, ρ⟩ fun r => ∀ c : Dev nD,
      r.2.mem ((c.tc : Thread nD τ).loc main_v12) = qOut (aq m c) (amu m c) (aWm m c) (aW1 m c) (ab1 m c) (aW2 m c) (ab2 m c)
      ∧ r.2.mem ((c.tc : Thread nD τ).loc main_v13) = muOut (aq m c) (amu m c) (aWm m c) (aW1 m c) (ab1 m c) (aW2 m c) (ab2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v12 (Pipeline.mem_restRefs_of main_v12 (by decide) (by decide))).trans (tail_q m c),
      ((h c).2 main_v13 (Pipeline.mem_restRefs_of main_v13 (by decide) (by decide))).trans (tail_mu m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c),
      ((h c).1 7).trans (((dats m 0 c).arrAt_in 7 rfl _).trans ((A_eq m c 7).trans (V_main_arg6 m c)))⟩)
    (run_main m ρ)

end Cert.MixArr

end
-- ==== Proof.RefValue.lean ====
/-
  The reference's two results, read at an index, are the row functions of the argument arrays.

  Each stage of the reference program is read at explicit coordinates and identified with the row function it computes:
  the channel mixing, its two halves, the stabilised norm, the two-piece context, the hidden layer before and after its
  activation, the output layer and its three thirds, the inner product over the Cartesian axis, and the two updates.
-/
import proofs.«107358_j34394098106847_1_alg».proof.Proof.Gen.ReferenceIdeal.Read
import proofs.«107358_j34394098106847_1_alg».proof.Proof.Spec
import Idealize.ShloMosaic.Lib.IdealHost
import Mathlib.Algebra.BigOperators.Fin

noncomputable section

open scoped BigOperators

namespace Cert.MixRef

open Idealize.ShloMosaic Idealize.ShloMosaic.ValueIdx Cert.MixRow Cert.MixSpec
open Cert.ReferenceIdeal Cert.ReferenceIdeal.Read

variable (x0 : (⟨S50000x1x512, .f32⟩ : BufTy).Contents (Elt Ideal)) (x1 : (⟨S50000x3x512, .f32⟩ : BufTy).Contents (Elt Ideal))
  (x2 : (⟨S1024x512, .f32⟩ : BufTy).Contents (Elt Ideal)) (x3 : (⟨S512x1024, .f32⟩ : BufTy).Contents (Elt Ideal))
  (x4 : (⟨S512, .f32⟩ : BufTy).Contents (Elt Ideal)) (x5 : (⟨S1536x512, .f32⟩ : BufTy).Contents (Elt Ideal))
  (x6 : (⟨S1536, .f32⟩ : BufTy).Contents (Elt Ideal))

/-! ### The channel mixing and its two halves -/

theorem lidx0_ix (n : Fin 50000) (d : Fin 3) (g : Fin 1024) (k : Fin 512) :
    lidx_main_v0 (ix3 n d g) k = ix3 n d k := by
  funext a; match a with | ⟨0, _⟩ => rfl | ⟨1, _⟩ => rfl | ⟨2, _⟩ => rfl

theorem ridx0_ix (n : Fin 50000) (d : Fin 3) (g : Fin 1024) (k : Fin 512) :
    ridx_main_v0 (ix3 n d g) k = ix2 g k := by
  funext a; match a with | ⟨0, _⟩ => rfl | ⟨1, _⟩ => rfl

/-- The first contraction at `[n, d, g]` is the mixing of component `d` at output channel `g`. -/
theorem v0_at (n : Fin 50000) (d : Fin 3) (g : Fin 1024) :
    val_main_v0 (F := Ideal) x1 x2 (ix3 n d g) = mix (muRow x1 n) (wmMat x2) d g := by
  refine (val_main_v0_apply x1 x2 _).trans ?_
  refine Finset.sum_congr rfl fun k _ => ?_
  rw [lidx0_ix, ridx0_ix]
  rfl

theorem idx1_ix (n : Fin 50000) (d : Fin 3) (j : Fin 512) : idx_main_v1 (ix3 n d j) = ix3 n d (lo j) := by
  funext a; match a with | ⟨0, _⟩ => rfl | ⟨1, _⟩ => rfl | ⟨2, _⟩ => rfl

theorem idx2_ix (n : Fin 50000) (d : Fin 3) (j : Fin 512) : idx_main_v2 (ix3 n d j) = ix3 n d (hi j) := by
  funext a; match a with | ⟨0, _⟩ => rfl | ⟨1, _⟩ => rfl | ⟨2, _⟩ => rfl

/-- The first half of the mixed channels. -/
theorem v1_at (n : Fin 50000) (d : Fin 3) (j : Fin 512) :
    val_main_v1 (F := Ideal) x1 x2 (ix3 n d j) = mix (muRow x1 n) (wmMat x2) d (lo j) := by
  rw [val_main_v1_apply, idx1_ix, v0_at]

/-- The second half of the mixed channels. -/
theorem v2_at (n : Fin 50000) (d : Fin 3) (j : Fin 512) :
    val_main_v2 (F := Ideal) x1 x2 (ix3 n d j) = mix (muRow x1 n) (wmMat x2) d (hi j) := by
  rw [val_main_v2_apply, idx2_ix, v0_at]

/-! ### The norm over the Cartesian axis -/

theorem v3_at (n : Fin 50000) (d : Fin 3) (j : Fin 512) :
    val_main_v3 (F := Ideal) x1 x2 (ix3 n d j)
      = mix (muRow x1 n) (wmMat x2) d (lo j) * mix (muRow x1 n) (wmMat x2) d (lo j) := by
  rw [val_main_v3_apply, v1_at]; rfl

theorem idx4_ix (n : Fin 50000) (j : Fin 512) (k : Fin 3) : idx_main_v4 (ix2 n j) k = ix3 n k j := by
  funext a; match a with | ⟨0, _⟩ => rfl | ⟨1, _⟩ => rfl | ⟨2, _⟩ => rfl

/-- The three-term sum of squares, the zero it starts from absorbed. -/
theorem v4_at (n : Fin 50000) (j : Fin 512) :
    val_main_v4 (F := Ideal) x1 x2 (ix2 n j)
      = mix (muRow x1 n) (wmMat x2) 0 (lo j) * mix (muRow x1 n) (wmMat x2) 0 (lo j)
        + mix (muRow x1 n) (wmMat x2) 1 (lo j) * mix (muRow x1 n) (wmMat x2) 1 (lo j)
        + mix (muRow x1 n) (wmMat x2) 2 (lo j) * mix (muRow x1 n) (wmMat x2) 2 (lo j) := by
  rw [val_main_v4_apply, val_main_cst_apply, Ideal.ofBits_def, Ideal.ofBits_zero_f32, zero_add, Fin.sum_univ_three,
    idx4_ix, idx4_ix, idx4_ix, v3_at, v3_at, v3_at]

theorem idx5_ix (n : Fin 50000) (u : Fin 1) (j : Fin 512) : idx_main_v5 (ix3 n u j) = ix2 n j := by
  funext a; match a with | ⟨0, _⟩ => rfl | ⟨1, _⟩ => rfl

/-- The stabilised norm at `[n, 0, j]`. -/
theorem v8_at (n : Fin 50000) (u : Fin 1) (j : Fin 512) :
    val_main_v8 (F := Ideal) x1 x2 (ix3 n u j) = vnorm (muRow x1 n) (wmMat x2) j := by
  rw [val_main_v8_apply, val_main_v7_apply, val_main_v5_apply, idx5_ix, v4_at, val_main_v6_apply, val_main_cst_0_apply]
  rfl

/-! ### The context `[q | norm]` and the hidden layer -/

/-- The joined array on its first half is the scalar channels. -/
theorem v9_lo (n : Fin 50000) (u : Fin 1) (j : Fin 512) :
    val_main_v9 (F := Ideal) x0 x1 x2 (ix3 n u (lo j)) = x0 (ix3 n u j) := by
  unfold val_main_v9
  exact concatenate_pair_apply_left 2 x0 (val_main_v8 (F := Ideal) x1 x2)
    _ (ix3 n u (lo j)) rfl (ix3 n u j)
    (fun b => match b with | ⟨0, _⟩ => rfl | ⟨1, _⟩ => rfl | ⟨2, _⟩ => rfl)

/-- The joined array on its second half is the norm. -/
theorem v9_hi (n : Fin 50000) (u : Fin 1) (j : Fin 512) :
    val_main_v9 (F := Ideal) x0 x1 x2 (ix3 n u (hi j)) = val_main_v8 (F := Ideal) x1 x2 (ix3 n u j) := by
  unfold val_main_v9
  exact concatenate_pair_apply_right 2 x0 (val_main_v8 (F := Ideal) x1 x2)
    _ (ix3 n u (hi j)) rfl rfl (ix3 n u j)
    (fun b => match b with
      | ⟨0, _⟩ => fun _ => rfl
      | ⟨1, _⟩ => fun _ => rfl
      | ⟨2, _⟩ => fun h => absurd rfl h)
    (by show j.val + 512 = 512 + j.val; omega)

/-- A sum over 1024 columns is the sum over the first 512 plus the sum over the last 512. -/
theorem sum_split_aux {N : Nat} (h : N = 512 + 512) (f : Fin N → EReal) :
    ∑ k : Fin N, f k
      = ∑ j : Fin 512, f ⟨j.val, by omega⟩ + ∑ j : Fin 512, f ⟨512 + j.val, by omega⟩ := by
  subst h
  exact Fin.sum_univ_add f

theorem sum_split (f : Fin 1024 → EReal) :
    ∑ k : Fin 1024, f k = ∑ j : Fin 512, f (lo j) + ∑ j : Fin 512, f (hi j) :=
  sum_split_aux rfl f

theorem lidx10_ix (n : Fin 50000) (u : Fin 1) (g : Fin 512) (k : Fin 1024) :
    lidx_main_v10 (ix3 n u g) k = ix3 n u k := by
  funext a; match a with | ⟨0, _⟩ => rfl | ⟨1, _⟩ => rfl | ⟨2, _⟩ => rfl

theorem ridx10_ix (n : Fin 50000) (u : Fin 1) (g : Fin 512) (k : Fin 1024) :
    ridx_main_v10 (ix3 n u g) k = ix2 g k := by
  funext a; match a with | ⟨0, _⟩ => rfl | ⟨1, _⟩ => rfl

/-- The second contraction, split at 512: the scalar channels against the first half of the weight's columns, the
    norms against the second half. -/
theorem v10_at (n : Fin 50000) (u : Fin 1) (g : Fin 512) :
    val_main_v10 (F := Ideal) x0 x1 x2 x3 (ix3 n u g)
      = ∑ f : Fin 512, x0 (ix3 n u f) * x3 (ix2 g (lo f))
        + ∑ f : Fin 512, vnorm (muRow x1 n) (wmMat x2) f * x3 (ix2 g (hi f)) := by
  refine (val_main_v10_apply x0 x1 x2 x3 _).trans ?_
  refine (sum_split _).trans ?_
  refine congrArg₂ (· + ·) (Finset.sum_congr rfl fun f _ => ?_) (Finset.sum_congr rfl fun f _ => ?_)
  · rw [lidx10_ix, ridx10_ix, v9_lo]
  · rw [lidx10_ix, ridx10_ix, v9_hi, v8_at]

theorem idx12_ix (n : Fin 50000) (u : Fin 1) (g : Fin 512) :
    idx_main_v12 (ix3 n u g) = ix3 (0 : Fin 1) (0 : Fin 1) g := by
  funext a; match a with | ⟨0, _⟩ => rfl | ⟨1, _⟩ => rfl | ⟨2, _⟩ => rfl

theorem idx11_ix (a b : Fin 1) (g : Fin 512) : idx_main_v11 (ix3 a b g) = ix1 g := by
  funext c; match c with | ⟨0, _⟩ => rfl

/-- The first bias, broadcast along the rows. -/
theorem v12_at (n : Fin 50000) (u : Fin 1) (g : Fin 512) :
    val_main_v12 (F := Ideal) x4 (ix3 n u g) = x4 (ix1 g) := by
  rw [val_main_v12_apply, idx12_ix, val_main_v11_apply, idx11_ix]

/-- The hidden layer before its activation. -/
theorem v13_at (n : Fin 50000) (g : Fin 512) :
    val_main_v13 (F := Ideal) x0 x1 x2 x3 x4 (ix3 n (0 : Fin 1) g)
      = hpre (qRow x0 n) (muRow x1 n) (wmMat x2) (w1aMat x3) (w1bMat x3) (b1Vec x4) g := by
  rw [val_main_v13_apply, v10_at, v12_at]
  rfl

/-! ### The activation -/

/-- The quotient the activation multiplies by is the logistic function of the hidden layer. -/
theorem call0_v5_at (i : S50000x1x512.Idx) :
    val_main_call0_v5 (F := Ideal) x0 x1 x2 x3 x4 i = Ideal.logistic (val_main_v13 (F := Ideal) x0 x1 x2 x3 x4 i) := by
  rw [val_main_call0_v5_apply, val_main_call0_v4_apply, val_main_call0_cst_0_apply, val_main_call0_v3_apply,
    val_main_call0_v2_apply, val_main_call0_cst_apply, val_main_call0_v1_apply, val_main_call0_v0_apply,
    Ideal.ofBits_def, Ideal.ofBits_one_f32]
  rfl

/-- The hidden layer: `x · σ(x)`. -/
theorem v14_at (n : Fin 50000) (g : Fin 512) :
    val_main_v14 (F := Ideal) x0 x1 x2 x3 x4 (ix3 n (0 : Fin 1) g)
      = hact (qRow x0 n) (muRow x1 n) (wmMat x2) (w1aMat x3) (w1bMat x3) (b1Vec x4) g := by
  rw [val_main_v14_apply, call0_v5_at, v13_at]
  rfl

/-! ### The output layer and its three thirds -/

theorem lidx15_ix (n : Fin 50000) (u : Fin 1) (k : Fin 1536) (g : Fin 512) :
    lidx_main_v15 (ix3 n u k) g = ix3 n u g := by
  funext a; match a with | ⟨0, _⟩ => rfl | ⟨1, _⟩ => rfl | ⟨2, _⟩ => rfl

theorem ridx15_ix (n : Fin 50000) (u : Fin 1) (k : Fin 1536) (g : Fin 512) :
    ridx_main_v15 (ix3 n u k) g = ix2 k g := by
  funext a; match a with | ⟨0, _⟩ => rfl | ⟨1, _⟩ => rfl

theorem idx17_ix (n : Fin 50000) (u : Fin 1) (k : Fin 1536) :
    idx_main_v17 (ix3 n u k) = ix3 (0 : Fin 1) (0 : Fin 1) k := by
  funext a; match a with | ⟨0, _⟩ => rfl | ⟨1, _⟩ => rfl | ⟨2, _⟩ => rfl

theorem idx16_ix (a b : Fin 1) (k : Fin 1536) : idx_main_v16 (ix3 a b k) = ix1 k := by
  funext c; match c with | ⟨0, _⟩ => rfl

/-- The second bias, broadcast along the rows. -/
theorem v17_at (n : Fin 50000) (u : Fin 1) (k : Fin 1536) :
    val_main_v17 (F := Ideal) x6 (ix3 n u k) = x6 (ix1 k) := by
  rw [val_main_v17_apply, idx17_ix, val_main_v16_apply, idx16_ix]

/-- The output layer at `[n, 0, k]`. -/
theorem v18_at (n : Fin 50000) (k : Fin 1536) :
    val_main_v18 (F := Ideal) x0 x1 x2 x3 x4 x5 x6 (ix3 n (0 : Fin 1) k)
      = xo (qRow x0 n) (muRow x1 n) (wmMat x2) (w1aMat x3) (w1bMat x3) (b1Vec x4) (w2Mat x5) (b2Vec x6) k := by
  rw [val_main_v18_apply, v17_at]
  refine congrArg (· + x6 (ix1 k)) ?_
  refine (val_main_v15_apply x0 x1 x2 x3 x4 x5 _).trans ?_
  refine Finset.sum_congr rfl fun g _ => ?_
  rw [lidx15_ix, ridx15_ix, v14_at]
  rfl

theorem idx19_ix (n : Fin 50000) (u : Fin 1) (j : Fin 512) : idx_main_v19 (ix3 n u j) = ix3 n u (th0 j) := by
  funext a; match a with | ⟨0, _⟩ => rfl | ⟨1, _⟩ => rfl | ⟨2, _⟩ => rfl

theorem idx20_ix (n : Fin 50000) (u : Fin 1) (j : Fin 512) : idx_main_v20 (ix3 n u j) = ix3 n u (th1 j) := by
  funext a; match a with | ⟨0, _⟩ => rfl | ⟨1, _⟩ => rfl | ⟨2, _⟩ => rfl

theorem idx23_ix (n : Fin 50000) (u : Fin 1) (j : Fin 512) : idx_main_v23 (ix3 n u j) = ix3 n u (th2 j) := by
  funext a; match a with | ⟨0, _⟩ => rfl | ⟨1, _⟩ => rfl | ⟨2, _⟩ => rfl

/-- The first third of the output layer. -/
theorem v19_at (n : Fin 50000) (j : Fin 512) :
    val_main_v19 (F := Ideal) x0 x1 x2 x3 x4 x5 x6 (ix3 n (0 : Fin 1) j)
      = xo (qRow x0 n) (muRow x1 n) (wmMat x2) (w1aMat x3) (w1bMat x3) (b1Vec x4) (w2Mat x5) (b2Vec x6) (th0 j) := by
  rw [val_main_v19_apply, idx19_ix, v18_at]

/-- The second third of the output layer. -/
theorem v20_at (n : Fin 50000) (j : Fin 512) :
    val_main_v20 (F := Ideal) x0 x1 x2 x3 x4 x5 x6 (ix3 n (0 : Fin 1) j)
      = xo (qRow x0 n) (muRow x1 n) (wmMat x2) (w1aMat x3) (w1bMat x3) (b1Vec x4) (w2Mat x5) (b2Vec x6) (th1 j) := by
  rw [val_main_v20_apply, idx20_ix, v18_at]

/-- The last third of the output layer. -/
theorem v23_at (n : Fin 50000) (j : Fin 512) :
    val_main_v23 (F := Ideal) x0 x1 x2 x3 x4 x5 x6 (ix3 n (0 : Fin 1) j)
      = xo (qRow x0 n) (muRow x1 n) (wmMat x2) (w1aMat x3) (w1bMat x3) (b1Vec x4) (w2Mat x5) (b2Vec x6) (th2 j) := by
  rw [val_main_v23_apply, idx23_ix, v18_at]

/-! ### The updated Cartesian channels -/

theorem idx21_ix (n : Fin 50000) (d : Fin 3) (j : Fin 512) :
    idx_main_v21 (ix3 n d j) = ix3 n (0 : Fin 1) j := by
  funext a; match a with | ⟨0, _⟩ => rfl | ⟨1, _⟩ => rfl | ⟨2, _⟩ => rfl

/-- The gate of the Cartesian update times the second half of the mixed channels. -/
theorem v22_at (n : Fin 50000) (d : Fin 3) (j : Fin 512) :
    val_main_v22 (F := Ideal) x0 x1 x2 x3 x4 x5 x6 (ix3 n d j)
      = xo (qRow x0 n) (muRow x1 n) (wmMat x2) (w1aMat x3) (w1bMat x3) (b1Vec x4) (w2Mat x5) (b2Vec x6) (th1 j)
        * mix (muRow x1 n) (wmMat x2) d (hi j) := by
  rw [val_main_v22_apply, val_main_v21_apply, idx21_ix, v20_at, v2_at]
  rfl

/-! ### The inner product over the Cartesian axis and the updated scalar channels -/

theorem v24_at (n : Fin 50000) (d : Fin 3) (j : Fin 512) :
    val_main_v24 (F := Ideal) x1 x2 (ix3 n d j)
      = mix (muRow x1 n) (wmMat x2) d (lo j) * mix (muRow x1 n) (wmMat x2) d (hi j) := by
  rw [val_main_v24_apply, v1_at, v2_at]; rfl

theorem idx25_ix (n : Fin 50000) (j : Fin 512) (k : Fin 3) : idx_main_v25 (ix2 n j) k = ix3 n k j := by
  funext a; match a with | ⟨0, _⟩ => rfl | ⟨1, _⟩ => rfl | ⟨2, _⟩ => rfl

theorem idx26_ix (n : Fin 50000) (u : Fin 1) (j : Fin 512) : idx_main_v26 (ix3 n u j) = ix2 n j := by
  funext a; match a with | ⟨0, _⟩ => rfl | ⟨1, _⟩ => rfl

/-- The three-term inner product, the zero it starts from absorbed. -/
theorem v26_at (n : Fin 50000) (u : Fin 1) (j : Fin 512) :
    val_main_v26 (F := Ideal) x1 x2 (ix3 n u j) = dotvw (muRow x1 n) (wmMat x2) j := by
  rw [val_main_v26_apply, idx26_ix, val_main_v25_apply, val_main_cst_1_apply, Ideal.ofBits_def, Ideal.ofBits_zero_f32,
    zero_add, Fin.sum_univ_three, idx25_ix, idx25_ix, idx25_ix, v24_at, v24_at, v24_at]
  rfl

/-- The reference's first result at `[n, 0, j]`. -/
theorem v29_at (n : Fin 50000) (j : Fin 512) :
    val_main_v29 (F := Ideal) x0 x1 x2 x3 x4 x5 x6 (ix3 n (0 : Fin 1) j)
      = qNew (qRow x0 n) (muRow x1 n) (wmMat x2) (w1aMat x3) (w1bMat x3) (b1Vec x4) (w2Mat x5) (b2Vec x6) j := by
  rw [val_main_v29_apply, val_main_v28_apply, val_main_v27_apply, v19_at, v23_at, v26_at]
  rfl

/-- The reference's second result at `[n, d, j]`. -/
theorem v30_at (n : Fin 50000) (d : Fin 3) (j : Fin 512) :
    val_main_v30 (F := Ideal) x0 x1 x2 x3 x4 x5 x6 (ix3 n d j)
      = muNew (qRow x0 n) (muRow x1 n) (wmMat x2) (w1aMat x3) (w1bMat x3) (b1Vec x4) (w2Mat x5) (b2Vec x6) d j := by
  rw [val_main_v30_apply, v22_at]
  rfl

/-- The reference's first result is `qOut` of the arguments. -/
theorem ref_q : val_main_v29 (F := Ideal) x0 x1 x2 x3 x4 x5 x6 = qOut x0 x1 x2 x3 x4 x5 x6 := by
  funext i
  obtain ⟨n, u, j, rfl⟩ : ∃ (n : Fin 50000) (u : Fin 1) (j : Fin 512), i = ix3 n u j := ⟨i 0, i 1, i 2, eq_ix3 i⟩
  obtain rfl : u = 0 := Subsingleton.elim _ _
  exact v29_at x0 x1 x2 x3 x4 x5 x6 n j

/-- The reference's second result is `muOut` of the arguments. -/
theorem ref_mu : val_main_v30 (F := Ideal) x0 x1 x2 x3 x4 x5 x6 = muOut x0 x1 x2 x3 x4 x5 x6 := by
  funext i
  obtain ⟨n, d, j, rfl⟩ : ∃ (n : Fin 50000) (d : Fin 3) (j : Fin 512), i = ix3 n d j := ⟨i 0, i 1, i 2, eq_ix3 i⟩
  exact v30_at x0 x1 x2 x3 x4 x5 x6 n d j

end Cert.MixRef

end
-- ==== Proof.lean ====
/-
  The mixing layer of an equivariant network: kernel against reference, over the extended reals.

  For each of 50000 rows the layer mixes the three Cartesian channel vectors through one weight (a 512 → 1024 map,
  whose first half V feeds a norm over the Cartesian axis and an inner product with the second half W), passes the
  scalar channels joined with the norms through a two-layer perceptron with the activation `x · σ(x)`, and adds gated
  updates to both channel sets. The specification of one row is Proof/Row.lean; Proof/Spec.lean lifts it to the arrays.

  The kernel tiles the rows in 125 blocks of 400 and works on flattened arrays and transposed weights, splitting the
  perceptron's first contraction at 512 and spelling the three-term sums out; the reference contracts the joined
  context in one sum of 1024 terms and reduces over the Cartesian axis from zero. At the ideal instance the format
  changes are the identity, a block product into zero is the plain sum of products, and the logistic function is
  `1 / (1 + e^{-x})` on both sides, so both programs compute the same two functions of a row: the kernel by
  Proof/BlockValue.lean (one block) and Proof/ArrayValue.lean (the blocks tile the results; the host reshapes around
  the region), the reference by Proof/RefValue.lean. Only the commutative monoid structure of addition is used: no
  finiteness of the inputs is needed, and the precondition is never opened.

  The three frames are the generated ones (the reference's is its generated run with the results dropped); the
  idealization rewrote nothing, so its conjunct is trivial.
-/
import proofs.«107358_j34394098106847_1_alg».proof.Defs
import proofs.«107358_j34394098106847_1_alg».proof.Proof.Gen.Kernel
import proofs.«107358_j34394098106847_1_alg».proof.Proof.Gen.Kernel.Skeleton
import proofs.«107358_j34394098106847_1_alg».proof.Proof.Gen.Kernel.Launch
import proofs.«107358_j34394098106847_1_alg».proof.Proof.Gen.Kernel.Points
import proofs.«107358_j34394098106847_1_alg».proof.Proof.Gen.Kernel.Frame
import proofs.«107358_j34394098106847_1_alg».proof.Proof.Gen.KernelIdeal
import proofs.«107358_j34394098106847_1_alg».proof.Proof.Gen.KernelIdeal.Skeleton
import proofs.«107358_j34394098106847_1_alg».proof.Proof.Gen.KernelIdeal.Launch
import proofs.«107358_j34394098106847_1_alg».proof.Proof.Gen.KernelIdeal.Points
import proofs.«107358_j34394098106847_1_alg».proof.Proof.Gen.KernelIdeal.Frame
import proofs.«107358_j34394098106847_1_alg».proof.Proof.Gen.ReferenceIdeal
import proofs.«107358_j34394098106847_1_alg».proof.Proof.Gen.Pre_finite_inputs
import proofs.«107358_j34394098106847_1_alg».proof.Proof.Gen.ReferenceIdeal.Run
import proofs.«107358_j34394098106847_1_alg».proof.Proof.Gen.ReferenceIdeal.Read
import proofs.«107358_j34394098106847_1_alg».proof.Proof.ArrayValue
import proofs.«107358_j34394098106847_1_alg».proof.Proof.RefValue
import Idealize.ShloMosaic.Adequacy
import Idealize.ShloMosaic.Init

noncomputable section

namespace Cert.Proof

open Idealize.ShloMosaic Idealize.SL.Sem Cert.MixSpec Cert.MixArr

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with `qOut` and `muOut` of arguments that agree. -/
theorem algebraic : Cert.algebraic_KernelIdeal_ReferenceIdeal := by
  intro m ρ m' ρ' _ hagree
  refine ⟨fun c => qOut (aq m c) (amu m c) (aWm m c) (aW1 m c) (ab1 m c) (aW2 m c) (ab2 m c),
    fun c => muOut (aq m c) (amu m c) (aWm m c) (aW1 m c) (ab1 m c) (aW2 m c) (ab2 m c), Cert.MixArr.run m ρ, ?_⟩
  refine (θ_run Cert.ReferenceIdeal.defs _ _).mono (fun _ h c => ⟨?_, ?_, (h c).2.2⟩)
    (Cert.ReferenceIdeal.Value.run (F := Ideal) m' ρ')
  · obtain ⟨e0, e1, e2, e3, e4, e5, e6⟩ := hagree c
    refine ((h c).1.trans (Cert.ReferenceIdeal.Read.val_main_v29_eq m' c)).trans ?_
    rw [Cert.MixRef.ref_q, e0, e1, e2, e3, e4, e5, e6]
  · obtain ⟨e0, e1, e2, e3, e4, e5, e6⟩ := hagree c
    refine ((h c).2.1.trans (Cert.ReferenceIdeal.Read.val_main_v30_eq _ _ _ _ _ _ _)).trans ?_
    rw [Cert.MixRef.ref_mu, e0, e1, e2, e3, e4, e5, e6]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
